-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x1024x1024 : Shape := ⟨4, ![1, 32, 1024, 1024]⟩
abbrev S1x1x1024x1024 : Shape := ⟨4, ![1, 1, 1024, 1024]⟩
abbrev S2x8192 : Shape := ⟨2, ![2, 8192]⟩
abbrev S_ : Shape := ⟨0, ![]⟩

class Facts : Prop where
  bcast_S_S1x32x1024x1024 : S_.BroadcastsInDim S1x32x1024x1024 (![] : Fin 0 → Fin S1x32x1024x1024.rank)
  reducesTo_S1x32x1024x1024_S_d0_1_2_3 : S1x32x1024x1024.ReducesTo [0, 1, 2, 3] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_

variable [Facts]

def fn {F : FTy → Type} [FloatOps F] (main_arg0 : FVec F S1x32x1024x1024 .f32) (main_arg1 : IVec S1x1x1024x1024 32) (main_arg2 : IVec S2x8192 32) : IVec S_ 1 :=
  let main_v0 : FVec F S1x32x1024x1024 .f32 := Host.absf main_arg0
  let main_cst : FVec F S_ .f32 := constant S_ .f32 0x7F800000#32
  let main_v1 : FVec F S1x32x1024x1024 .f32 := broadcastInDim S1x32x1024x1024 ![] bcast_S_S1x32x1024x1024 main_cst
  let main_v2 : IVec S1x32x1024x1024 1 := cmpf .olt main_v0 main_v1
  let main_c : IVec S_ 1 := constantI S_ 1 1#1
  let main_v3 : IVec S_ 1 := (fun x v => Host.reduce IntOp.andi x v reducesTo_S1x32x1024x1024_S_d0_1_2_3 h_S_) main_v2 main_c
  let main_c_0 : IVec S_ 32 := constantI S_ 32 0#32
  let main_v4 : IVec S1x1x1024x1024 32 := broadcastInDim S1x1x1024x1024 ![] bcast_S_S1x1x1024x1024 main_c_0
  let main_v5 : IVec S1x1x1024x1024 1 := cmpi .sge main_arg1 main_v4
  let main_c_1 : IVec S_ 1 := constantI S_ 1 1#1
  let main_v6 : IVec S_ 1 := (fun x v => Host.reduce IntOp.andi x v reducesTo_S1x1x1024x1024_S_d0_1_2_3 h_S_) main_v5 main_c_1
  let main_v7 : IVec S_ 1 := andi main_v3 main_v6
  let main_c_2 : IVec S_ 32 := constantI S_ 32 1024#32
  let main_v8 : IVec S1x1x1024x1024 32 := broadcastInDim S1x1x1024x1024 ![] bcast_S_S1x1x1024x1024 main_c_2
  let main_v9 : IVec S1x1x1024x1024 1 := cmpi .slt main_arg1 main_v8
  let main_c_3 : IVec S_ 1 := constantI S_ 1 1#1
  let main_v10 : IVec S_ 1 := (fun x v => Host.reduce IntOp.andi x v reducesTo_S1x1x1024x1024_S_d0_1_2_3 h_S_) main_v9 main_c_3
  let main_v11 : IVec S_ 1 := andi main_v7 main_v10
  main_v11
-- ==== Kernel.lean ====
abbrev S1x32x1024x1024 : Shape := ⟨4, ![1, 32, 1024, 1024]⟩
abbrev S1x1x1024x1024 : Shape := ⟨4, ![1, 1, 1024, 1024]⟩
abbrev S2x8192 : Shape := ⟨2, ![2, 8192]⟩
abbrev S32x1048576 : Shape := ⟨2, ![32, 1048576]⟩
abbrev S1x1048576 : Shape := ⟨2, ![1, 1048576]⟩
abbrev S1024x32 : Shape := ⟨2, ![1024, 32]⟩
abbrev S1024x1 : Shape := ⟨2, ![1024, 1]⟩
abbrev S32x2048 : Shape := ⟨2, ![32, 2048]⟩
abbrev S1x2048 : Shape := ⟨2, ![1, 2048]⟩
abbrev S1024x2048 : Shape := ⟨2, ![1024, 2048]⟩
abbrev S1024 : Shape := ⟨1, ![1024]⟩
abbrev S_ : Shape := ⟨0, ![]⟩
abbrev S1x1 : Shape := ⟨2, ![1, 1]⟩
abbrev S2048 : Shape := ⟨1, ![2048]⟩
abbrev S1 : Shape := ⟨1, ![1]⟩
abbrev S1x8192 : Shape := ⟨2, ![1, 8192]⟩
abbrev S8192 : Shape := ⟨1, ![8192]⟩
abbrev S8192x1 : Shape := ⟨2, ![8192, 1]⟩
abbrev S8192x32 : Shape := ⟨2, ![8192, 32]⟩

abbrev nBuf : Space → Nat
  | .hbm => 68
  | .vmem => 13
  | .smem => 0
  | _ => 0

abbrev bufTy : (tb : Table) → Fin (tcTables nBuf tb) → BufTy
  | .hbm, ⟨0, _⟩ => ⟨S1x32x1024x1024, .f32⟩
  | .hbm, ⟨1, _⟩ => ⟨S1x1x1024x1024, .i32⟩
  | .hbm, ⟨2, _⟩ => ⟨S2x8192, .i32⟩
  | .hbm, ⟨3, _⟩ => ⟨S32x1048576, .f32⟩
  | .hbm, ⟨4, _⟩ => ⟨S1x1048576, .i32⟩
  | .hbm, ⟨5, _⟩ => ⟨S1024x32, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x32, .f32⟩
  | .hbm, ⟨11, _⟩ => ⟨S1024x32, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S1x8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x32, .f32⟩
  | .hbm, ⟨27, _⟩ => ⟨S1x8192, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192, .f32⟩
  | .hbm, ⟨41, _⟩ => ⟨S8192x32, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x32, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S1x2048, .i32⟩
  | .local _ .vmem, ⟨3, _⟩ => ⟨S1x2048, .i32⟩
  | .local _ .vmem, ⟨4, _⟩ => ⟨S1024x32, .f32⟩
  | .local _ .vmem, ⟨5, _⟩ => ⟨S1024x1, .f32⟩
  | .local _ .vmem, ⟨6, _⟩ => ⟨S32x2048, .f32⟩
  | .local _ .vmem, ⟨7, _⟩ => ⟨S32x2048, .f32⟩
  | .local _ .vmem, ⟨8, _⟩ => ⟨S1x2048, .i32⟩
  | .local _ .vmem, ⟨9, _⟩ => ⟨S1x2048, .i32⟩
  | .local _ .vmem, ⟨10, _⟩ => ⟨S1024x32, .f32⟩
  | .local _ .vmem, ⟨11, _⟩ => ⟨S1x1, .f32⟩
  | .local _ .vmem, ⟨12, _⟩ => ⟨S1x1, .f32⟩
  | _, _ => ⟨S1x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S1x32x1024x1024_S32x1048576 : S1x32x1024x1024.ShapeCasts S32x1048576
  shapeCasts_S1x1x1024x1024_S1x1048576 : S1x1x1024x1024.ShapeCasts S1x1048576
  inb_S1024x32_S1024x32_0_0 : ∀ a, (![0, 0] : Fin 2 → Nat) a + S1024x32.size a ≤ S1024x32.size a
  h_S1024x32 : 0 < S1024x32.numel
  inb_S1024x1_S1024x1_0_0 : ∀ a, (![0, 0] : Fin 2 → Nat) a + S1024x1.size a ≤ S1024x1.size a
  h_S1024x1 : 0 < S1024x1.numel
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  bitsLt_bf16_f32 : FTy.bits .bf16 < FTy.bits .f32
  reduces_S1024x2048_S1024 : S1024x2048.Reduces [1] S1024
  shapeCasts_S1024_S1024x1 : S1024.ShapeCasts S1024x1
  shapeCasts_S1024x32_S1024x32 : S1024x32.ShapeCasts S1024x32
  shapeCasts_S1024x1_S1024x1 : S1024x1.ShapeCasts S1024x1
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  inb_S1x1_S1x1_0_0 : ∀ a, (![0, 0] : Fin 2 → Nat) a + S1x1.size a ≤ S1x1.size a
  h_S1x1 : 0 < S1x1.numel
  reduces_S32x2048_S2048 : S32x2048.Reduces [0] S2048
  shapeCasts_S2048_S1x2048 : S2048.ShapeCasts S1x2048
  shapeCasts_S1x1_S1x1 : S1x1.ShapeCasts S1x1
  reduces_S1x2048_S1 : S1x2048.Reduces [1] S1
  shapeCasts_S1_S1x1 : S1.ShapeCasts S1x1
  shapeCasts_S1x1_S_ : S1x1.ShapeCasts S_
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  reducesTo_S8192x32_S8192_d1 : S8192x32.ReducesTo [1] S8192
  h_S_ : 0 < S_.numel
  reducesTo_S8192_S_d0 : S8192.ReducesTo [0] S_
  dot_S1024x2048_S32x2048_S1024x32_1_1_0_0_n_n_wf : DotDims.WF S1024x2048 S32x2048 S1024x32 [1] [1] [0] [0] [] []
  dot_S1024x32_S1024x2048_S32x2048_0_0_1_1_n_n_wf : DotDims.WF S1024x32 S1024x2048 S32x2048 [0] [0] [1] [1] [] []
  gather_S1024x32_S8192x1_S8192x32_1_0_n_n_0_1_132_wf : GatherDims.WF S1024x32 S8192x1 S8192x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x1048576.size a
  hwx0_0 : ∀ i : grid0.Coords, EltTy.bits .f32 = 32 ∨ (Rect.block (s := S32x1048576) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x1048576.size a
  hwx0_1 : ∀ i : grid0.Coords, EltTy.bits .i32 = 32 ∨ (Rect.block (s := S1x1048576) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S1024x32.size a
  hwx0_2 : ∀ i : grid0.Coords, EltTy.bits .f32 = 32 ∨ (Rect.block (s := S1024x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2048.size a ≤ S32x1048576.size a
  hwx1_0 : ∀ i : grid1.Coords, EltTy.bits .f32 = 32 ∨ (Rect.block (s := S32x1048576) S32x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1048576.size a
  hwx1_1 : ∀ i : grid1.Coords, EltTy.bits .i32 = 32 ∨ (Rect.block (s := S1x1048576) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S1024x32.size a
  hwx1_2 : ∀ i : grid1.Coords, EltTy.bits .f32 = 32 ∨ (Rect.block (s := S1024x32) S1024x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x2048_S32x2048_S1024x32_1_1_0_0_n_n : DotDims S1024x2048 S32x2048 S1024x32 where
  lhsContracting := [1]
  rhsContracting := [1]
  lhsNonContracting := [0]
  rhsNonContracting := [0]
  lhsBatch := []
  rhsBatch := []
  wf := dot_S1024x2048_S32x2048_S1024x32_1_1_0_0_n_n_wf
def dot_S1024x32_S1024x2048_S32x2048_0_0_1_1_n_n : DotDims S1024x32 S1024x2048 S32x2048 where
  lhsContracting := [0]
  rhsContracting := [0]
  lhsNonContracting := [1]
  rhsNonContracting := [1]
  lhsBatch := []
  rhsBatch := []
  wf := dot_S1024x32_S1024x2048_S32x2048_0_0_1_1_n_n_wf
def gather_S1024x32_S8192x1_S8192x32_1_0_n_n_0_1_132 : GatherDims S1024x32 S8192x1 S8192x32 where
  offsetDims := [1]
  collapsedSliceDims := [0]
  operandBatchingDims := []
  startIndicesBatchingDims := []
  startIndexMap := [0]
  indexVectorDim := 1
  sliceSizes := ![1, 32]
  wf := gather_S1024x32_S8192x1_S8192x32_1_0_n_n_0_1_132_wf

abbrev win0_0 : Pipeline.Window sig grid0 :=
  Pipeline.Window.ofSpec (Memref.whole main_v0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x32.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S32x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x32x1024x1024 : Shape := ⟨4, ![1, 32, 1024, 1024]⟩
abbrev S1x1x1024x1024 : Shape := ⟨4, ![1, 1, 1024, 1024]⟩
abbrev S2x8192 : Shape := ⟨2, ![2, 8192]⟩
abbrev S32x1048576 : Shape := ⟨2, ![32, 1048576]⟩
abbrev S1048576x32 : Shape := ⟨2, ![1048576, 32]⟩
abbrev S1048576 : Shape := ⟨1, ![1048576]⟩
abbrev S_ : Shape := ⟨0, ![]⟩
abbrev S1024x32 : Shape := ⟨2, ![1024, 32]⟩
abbrev S1048576x1 : Shape := ⟨2, ![1048576, 1]⟩
abbrev S1024 : Shape := ⟨1, ![1024]⟩
abbrev S1024x1 : Shape := ⟨2, ![1024, 1]⟩
abbrev S1x8192 : Shape := ⟨2, ![1, 8192]⟩
abbrev S8192 : Shape := ⟨1, ![8192]⟩
abbrev S8192x1 : Shape := ⟨2, ![8192, 1]⟩
abbrev S8192x32 : Shape := ⟨2, ![8192, 32]⟩

abbrev nBuf : Space → Nat
  | .hbm => 111
  | .vmem => 0
  | .smem => 0
  | _ => 0

abbrev bufTy : (tb : Table) → Fin (tcTables nBuf tb) → BufTy
  | .hbm, ⟨0, _⟩ => ⟨S1x32x1024x1024, .f32⟩
  | .hbm, ⟨1, _⟩ => ⟨S1x1x1024x1024, .i32⟩
  | .hbm, ⟨2, _⟩ => ⟨S2x8192, .i32⟩
  | .hbm, ⟨3, _⟩ => ⟨S32x1048576, .f32⟩
  | .hbm, ⟨4, _⟩ => ⟨S1048576x32, .f32⟩
  | .hbm, ⟨5, _⟩ => ⟨S1048576, .i32⟩
  | .hbm, ⟨6, _⟩ => ⟨S_, .f32⟩
  | .hbm, ⟨7, _⟩ => ⟨S1024x32, .f32⟩
  | .hbm, ⟨8, _⟩ => ⟨S1048576x1, .i32⟩
  | .hbm, ⟨9, _⟩ => ⟨S1024x32, .f32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S1024, .f32⟩
  | .hbm, ⟨14, _⟩ => ⟨S1048576x1, .i32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024x1, .f32⟩
  | .hbm, ⟨20, _⟩ => ⟨S1024x32, .f32⟩
  | .hbm, ⟨21, _⟩ => ⟨S1024x32, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x32, .f32⟩
  | .hbm, ⟨31, _⟩ => ⟨S1048576x32, .f32⟩
  | .hbm, ⟨32, _⟩ => ⟨S_, .f32⟩
  | .hbm, ⟨33, _⟩ => ⟨S1048576, .f32⟩
  | .hbm, ⟨34, _⟩ => ⟨S1048576x32, .f32⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S_, .f32⟩
  | .hbm, ⟨39, _⟩ => ⟨S1048576, .f32⟩
  | .hbm, ⟨40, _⟩ => ⟨S1048576, .f32⟩
  | .hbm, ⟨41, _⟩ => ⟨S1048576x32, .f32⟩
  | .hbm, ⟨42, _⟩ => ⟨S_, .f32⟩
  | .hbm, ⟨43, _⟩ => ⟨S1048576, .f32⟩
  | .hbm, ⟨44, _⟩ => ⟨S1048576, .f32⟩
  | .hbm, ⟨45, _⟩ => ⟨S_, .f32⟩
  | .hbm, ⟨46, _⟩ => ⟨S1048576, .f32⟩
  | .hbm, ⟨47, _⟩ => ⟨S1048576, .f32⟩
  | .hbm, ⟨48, _⟩ => ⟨S1048576, .f32⟩
  | .hbm, ⟨49, _⟩ => ⟨S1048576, .f32⟩
  | .hbm, ⟨50, _⟩ => ⟨S_, .f32⟩
  | .hbm, ⟨51, _⟩ => ⟨S1048576, .f32⟩
  | .hbm, ⟨52, _⟩ => ⟨S1048576, .f32⟩
  | .hbm, ⟨53, _⟩ => ⟨S1x8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x32, .f32⟩
  | .hbm, ⟨64, _⟩ => ⟨S1x8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x32, .f32⟩
  | .hbm, ⟨75, _⟩ => ⟨S8192x32, .f32⟩
  | .hbm, ⟨76, _⟩ => ⟨S_, .f32⟩
  | .hbm, ⟨77, _⟩ => ⟨S8192, .f32⟩
  | .hbm, ⟨78, _⟩ => ⟨S8192x32, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192x32, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S1048576, .f32⟩
  | .hbm, ⟨98, _⟩ => ⟨S_, .f32⟩
  | .hbm, ⟨99, _⟩ => ⟨S_, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S1048576, .f32⟩
  | .hbm, ⟨106, _⟩ => ⟨S1048576, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S1x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_v66 : Ref sig .tc := ⟨.hbm, 100, rfl⟩
abbrev main_cst_17 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_cst_19 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  shapeCasts_S1x32x1024x1024_S32x1048576 : S1x32x1024x1024.ShapeCasts S32x1048576
  transposes_S32x1048576_S1048576x32_1_0 : S32x1048576.Transposes [1, 0] S1048576x32
  shapeCasts_S1x1x1024x1024_S1048576 : S1x1x1024x1024.ShapeCasts S1048576
  bcast_S_S1024x32 : S_.BroadcastsInDim S1024x32 (![] : Fin 0 → Fin S1024x32.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  reducesTo_S1048576x32_S1048576_d1 : S1048576x32.ReducesTo [1] S1048576
  h_S_ : 0 < S_.numel
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  reducesTo_S8192x32_S8192_d1 : S8192x32.ReducesTo [1] S8192
  reducesTo_S1048576_S_d0 : S1048576.ReducesTo [0] S_
  reducesTo_S8192_S_d0 : S8192.ReducesTo [0] S_
  scatter_S1024x32_S1048576x1_S1048576x32_1_0_0_1_wf : ScatterDims.WF S1024x32 S1048576x1 S1048576x32 [1] [0] [0] 1
  scatter_S1024_S1048576x1_S1048576_n_0_0_1_wf : ScatterDims.WF S1024 S1048576x1 S1048576 [] [0] [0] 1
  gather_S1024x32_S1048576x1_S1048576x32_1_0_n_n_0_1_132_wf : GatherDims.WF S1024x32 S1048576x1 S1048576x32 [1] [0] [] [0] [] 1 ![1, 32]
  gather_S1024x32_S8192x1_S8192x32_1_0_n_n_0_1_132_wf : GatherDims.WF S1024x32 S8192x1 S8192x32 [1] [0] [] [0] [] 1 ![1, 32]

variable [Facts₀]

def scatter_S1024x32_S1048576x1_S1048576x32_1_0_0_1 : ScatterDims S1024x32 S1048576x1 S1048576x32 where
  updateWindowDims := [1]
  insertedWindowDims := [0]
  scatterDimsToOperandDims := [0]
  indexVectorDim := 1
  wf := scatter_S1024x32_S1048576x1_S1048576x32_1_0_0_1_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024x32_S1048576x1_S1048576x32_1_0_n_n_0_1_132 : GatherDims S1024x32 S1048576x1 S1048576x32 where
  offsetDims := [1]
  collapsedSliceDims := [0]
  operandBatchingDims := []
  startIndicesBatchingDims := []
  startIndexMap := [0]
  indexVectorDim := 1
  sliceSizes := ![1, 32]
  wf := gather_S1024x32_S1048576x1_S1048576x32_1_0_n_n_0_1_132_wf
def gather_S1024x32_S8192x1_S8192x32_1_0_n_n_0_1_132 : GatherDims S1024x32 S8192x1 S8192x32 where
  offsetDims := [1]
  collapsedSliceDims := [0]
  operandBatchingDims := []
  startIndicesBatchingDims := []
  startIndexMap := [0]
  indexVectorDim := 1
  sliceSizes := ![1, 32]
  wf := gather_S1024x32_S8192x1_S8192x32_1_0_n_n_0_1_132_wf

class Facts : Prop extends Facts₀ where

variable [Facts]
-- ==== Proof.Inter.lean ====
/-
  The inter term, which both programs compute by the same host operations from the table of segment means `M`
  [1024, 32] and the edge list `e` [2, 8192]: for each edge the two rows of `M` its ends name (a negative id wrapped
  once by 1024, then clamped by the gather), their cosine with eps-clamped norms over the temperature, and the sum of
  the exponentials over the edges.  It is carried as ONE function of `(M, e)`; nothing below it is ever opened.
-/
import proofs.«400441_j2886218023667_1_alg».proof.KernelIdeal
import proofs.«400441_j2886218023667_1_alg».proof.Proof.Gen.KernelIdeal

noncomputable section

open Idealize.ShloMosaic

namespace Cert.KernelIdeal.Tail

open Cert.KernelIdeal Cert.KernelIdeal.Gen

variable {F : FTy → Type} [FloatOps F]

/-- The start indices of a row gather from a vector of ids: a negative id moved up by 1024, as a column. -/
def startIdx (row : IVec S8192 32) : IVec S8192x1 32 :=
  broadcastInDim S8192x1 ![0] bcast_S8192_S8192x1_0
    (select (cmpi .slt row (broadcastInDim S8192 ![] bcast_S_S8192 (constantI S_ 32 0#32)))
      (addi row (broadcastInDim S8192 ![] bcast_S_S8192 (constantI S_ 32 1024#32))) row)

/-- The rows of `M` named by the edges' first ends. -/
def rows0 (M : FVec F S1024x32 .f32) (e : IVec S2x8192 32) : FVec F S8192x32 .f32 :=
  Host.gather gather_S1024x32_S8192x1_S8192x32_1_0_n_n_0_1_132 M
    (startIdx (shapeCast S8192 (extractStridedSlice S1x8192 ![0, 0] e slices_S2x8192_S1x8192_0_0) shapeCasts_S1x8192_S8192))

/-- The rows of `M` named by the edges' second ends. -/
def rows1 (M : FVec F S1024x32 .f32) (e : IVec S2x8192 32) : FVec F S8192x32 .f32 :=
  Host.gather gather_S1024x32_S8192x1_S8192x32_1_0_n_n_0_1_132 M
    (startIdx (shapeCast S8192 (extractStridedSlice S1x8192 ![1, 0] e slices_S2x8192_S1x8192_1_0) shapeCasts_S1x8192_S8192))

/-- The Euclidean norm of each row. -/
def rowNorm (A : FVec F S8192x32 .f32) : FVec F S8192 .f32 :=
  Host.sqrt (Host.reduceAdd (mulf A A) (constant S_ .f32 0x00000000#32) reducesTo_S8192x32_S8192_d1 h_S_)

/-- Sum over the edges of exp(cosine / temperature). -/
def inter (M : FVec F S1024x32 .f32) (e : IVec S2x8192 32) : FVec F S_ .f32 :=
  Host.reduceAdd
    (Host.exp
      (Host.divf
        (Host.divf
          (Host.reduceAdd (mulf (rows0 M e) (rows1 M e)) (constant S_ .f32 0x00000000#32) reducesTo_S8192x32_S8192_d1 h_S_)
          (mulf
            (maximumf (rowNorm (rows0 M e)) (broadcastInDim S8192 ![] bcast_S_S8192 (constant S_ .f32 0x322BCC77#32)))
            (maximumf (rowNorm (rows1 M e)) (broadcastInDim S8192 ![] bcast_S_S8192 (constant S_ .f32 0x322BCC77#32)))))
        (broadcastInDim S8192 ![] bcast_S_S8192 (constant S_ .f32 0x3F000000#32))))
    (constant S_ .f32 0x00000000#32) reducesTo_S8192_S_d0 h_S_

end Cert.KernelIdeal.Tail

end
-- ==== Proof.KernelHost.lean ====
/-
  The host operations of the kernel's program, stretch by stretch, as functions of the buffer contents they start from:
  before the first region the two flattening reshapes; between the regions the table of means (sums over the counts
  clamped below by one, the counts' column laid along the channels); after the second region the loss
  log(sum_exp + inter) − sum_intra / N, the inter term the shared chain of the table and the edges.
-/
import proofs.«400441_j2886218023667_1_alg».proof.Proof.Gen.KernelIdeal.Launch
import proofs.«400441_j2886218023667_1_alg».proof.Proof.Inter
import Idealize.ShloMosaic.Lib.StableHlo.Run

noncomputable section

open Idealize.ShloMosaic Idealize.ShloMosaic.TcCoe Idealize.SL.Sem Idealize.ShloMosaic.StableHlo

namespace Cert.KernelIdeal.HostSteps

open Cert.KernelIdeal Cert.KernelIdeal.Gen

variable {F : FTy → Type} [FloatOps F]

/-! ## Before the first region -/

theorem pre_v0 (Wv : Valuation τ sig (Elt F)) :
    StableHlo.after (hostOps0 (F := F)) Wv (Proc.devRef .tc main_v0)
      = shapeCast S32x1048576 (Wv (Proc.devRef .tc main_arg0)) shapeCasts_S1x32x1024x1024_S32x1048576 := by
  after_results_simp <;> rfl

theorem pre_v1 (Wv : Valuation τ sig (Elt F)) :
    StableHlo.after (hostOps0 (F := F)) Wv (Proc.devRef .tc main_v1)
      = shapeCast S1x1048576 (Wv (Proc.devRef .tc main_arg1)) shapeCasts_S1x1x1024x1024_S1x1048576 := by
  after_results_simp <;> rfl

theorem pre_arg2 (Wv : Valuation τ sig (Elt F)) :
    StableHlo.after (hostOps0 (F := F)) Wv (Proc.devRef .tc main_arg2) = Wv (Proc.devRef .tc main_arg2) := by
  after_results_simp

/-! ## Between the regions -/

/-- The table of means from the sums and the counts' column. -/
def meansOp (A : FVec F S1024x32 .f32) (C : FVec F S1024x1 .f32) : FVec F S1024x32 .f32 :=
  Host.divf A (broadcastInDim S1024x32 ![0, 1] bcast_S1024x1_S1024x32_0_1
    (maximumf C (broadcastInDim S1024x1 ![] bcast_S_S1024x1 (constant S_ .f32 0x3F800000#32))))

theorem mid_v6 (Wv : Valuation τ sig (Elt F)) :
    StableHlo.after (hostOps1 (F := F)) Wv (Proc.devRef .tc main_v6)
      = meansOp (Wv (Proc.devRef .tc main_v2_0)) (Wv (Proc.devRef .tc main_v2_1)) := by
  after_results_simp <;> rfl

theorem mid_v0 (Wv : Valuation τ sig (Elt F)) :
    StableHlo.after (hostOps1 (F := F)) Wv (Proc.devRef .tc main_v0) = Wv (Proc.devRef .tc main_v0) := by
  after_results_simp

theorem mid_v1 (Wv : Valuation τ sig (Elt F)) :
    StableHlo.after (hostOps1 (F := F)) Wv (Proc.devRef .tc main_v1) = Wv (Proc.devRef .tc main_v1) := by
  after_results_simp

theorem mid_arg2 (Wv : Valuation τ sig (Elt F)) :
    StableHlo.after (hostOps1 (F := F)) Wv (Proc.devRef .tc main_arg2) = Wv (Proc.devRef .tc main_arg2) := by
  after_results_simp

/-! ## After the second region -/

/-- The last lines: log(sum_exp + inter) − sum_intra / N, the two sums as [1,1] arrays. -/
def lossOp (se si : FVec F S1x1 .f32) (M : FVec F S1024x32 .f32) (e : IVec S2x8192 32) : FVec F S_ .f32 :=
  subf (Host.log (addf (shapeCast S_ se shapeCasts_S1x1_S_) (Tail.inter M e)))
    (Host.divf (shapeCast S_ si shapeCasts_S1x1_S_) (constant S_ .f32 0x49800000#32))

set_option maxHeartbeats 4000000 in
theorem post_v45 (Wv : Valuation τ sig (Elt F)) :
    StableHlo.after (hostOps2_4 (F := F)) (StableHlo.after (hostOps2_3 (F := F)) (StableHlo.after (hostOps2_2 (F := F))
      (StableHlo.after (hostOps2_1 (F := F)) (StableHlo.after (hostOps2 (F := F)) Wv)))) (Proc.devRef .tc main_v45)
      = lossOp (Wv (Proc.devRef .tc main_v7_0)) (Wv (Proc.devRef .tc main_v7_1)) (Wv (Proc.devRef .tc main_v6))
          (Wv (Proc.devRef .tc main_arg2)) := by
  after_results_simp <;> rfl

end Cert.KernelIdeal.HostSteps

end
-- ==== Proof.Spec.lean ====
/-
  The mathematics both programs compute, over the extended reals, as functions of the flattened arrays:
  the embeddings `X : [32, N]` (channel, pixel), the segment id of each pixel `sg : pixel → word`, `N = 1048576`
  pixels, 1024 segments, 32 channels.

  * `hot sg s n` is 1 when pixel `n` carries segment `s`, else 0 (the one-hot the kernel builds by comparing an iota
    with the ids);
  * `sumsArr`, `cntsArr`: per segment the sum of its pixels' embeddings and the number of its pixels, as sums over ALL
    pixels weighted by `hot`;
  * `meansArr`: sum over max(count, 1);
  * `pick M sg c n`: row `sg n` of a table `M`, taken as the one-hot contraction `∑ s, M[s, c] · hot s n`;
  * `cosT a b`: the cosine of two 32-vectors with each norm clamped below by eps, divided by the temperature 1/2;
  * `intraAt`: that cosine between pixel `n`'s embedding and its segment's mean; `sumExp`, `sumIntra` its sums over pixels.
-/
import Idealize.ShloMosaic.PureOps.Ideal
import Idealize.ShloMosaic.Lib.ValueIdx

noncomputable section

open Idealize.ShloMosaic
open Idealize.ShloMosaic.ValueIdx (ix2)
open scoped BigOperators

namespace Cert.SegLoss

abbrev SE : Shape := ⟨2, ![32, 1048576]⟩
abbrev SK : Shape := ⟨2, ![1, 1048576]⟩
abbrev SM : Shape := ⟨2, ![1024, 32]⟩
abbrev SC : Shape := ⟨2, ![1024, 1]⟩
abbrev S11 : Shape := ⟨2, ![1, 1]⟩

/-- 1 when pixel `n` carries segment `s`, else 0. -/
def hot (sg : Fin 1048576 → BitVec 32) (s : Fin 1024) (n : Fin 1048576) : EReal :=
  if BitVec.ofNat 32 s.val = sg n then 1 else 0

/-- Channel `c` of pixel `n`. -/
def embAt (X : SE.Idx → EReal) (c : Fin 32) (n : Fin 1048576) : EReal := X (ix2 c n)

/-- The id of pixel `n`, read off the [1, N] row of ids. -/
def segK (S : SK.Idx → BitVec 32) (n : Fin 1048576) : BitVec 32 := S (ix2 (0 : Fin 1) n)

/-- Per segment and channel, the sum of the segment's pixels' embeddings. -/
def sumsArr (X : SE.Idx → EReal) (sg : Fin 1048576 → BitVec 32) : SM.Idx → EReal :=
  fun i => ∑ n : Fin 1048576, hot sg (i 0) n * embAt X (i 1) n

/-- Per segment, the number of its pixels (a [1024, 1] column). -/
def cntsArr (sg : Fin 1048576 → BitVec 32) : SC.Idx → EReal :=
  fun i => ∑ n : Fin 1048576, hot sg (i 0) n

/-- The float word of 1. -/
abbrev oneW : EReal := Ideal.ofBits .f32 0x3F800000#32
/-- The norm clamp (the f32 nearest 1e-8). -/
abbrev eps : EReal := Ideal.ofBits .f32 0x322BCC77#32
/-- The temperature 1/2. -/
abbrev half : EReal := Ideal.ofBits .f32 0x3F000000#32
/-- The number of pixels, 2^20, as a float word. -/
abbrev npix : EReal := Ideal.ofBits .f32 0x49800000#32

/-- The segment means: sums over max(count, 1). -/
def meansArr (A : SM.Idx → EReal) (C : SC.Idx → EReal) : SM.Idx → EReal :=
  fun i => Ideal.div (A i) (max (C (ix2 (i 0) (0 : Fin 1))) oneW)

/-- Row `sg n` of the table `M` at channel `c`, as the one-hot contraction over the segments. -/
def pick (M : SM.Idx → EReal) (sg : Fin 1048576 → BitVec 32) (c : Fin 32) (n : Fin 1048576) : EReal :=
  ∑ s : Fin 1024, M (ix2 s c) * hot sg s n

/-- Cosine of two 32-vectors, each norm clamped below by eps, over the temperature. -/
def cosT (a b : Fin 32 → EReal) : EReal :=
  Ideal.div (Ideal.div (∑ c : Fin 32, a c * b c)
    (max (Ideal.sqrt (∑ c : Fin 32, a c * a c)) eps * max (Ideal.sqrt (∑ c : Fin 32, b c * b c)) eps)) half

/-- The intra term of pixel `n`: its embedding against its segment's row of `M`. -/
def intraAt (X : SE.Idx → EReal) (sg : Fin 1048576 → BitVec 32) (M : SM.Idx → EReal) (n : Fin 1048576) : EReal :=
  cosT (fun c => embAt X c n) (fun c => pick M sg c n)

def sumExp (X : SE.Idx → EReal) (sg : Fin 1048576 → BitVec 32) (M : SM.Idx → EReal) : EReal :=
  ∑ n : Fin 1048576, Ideal.exp (intraAt X sg M n)

def sumIntra (X : SE.Idx → EReal) (sg : Fin 1048576 → BitVec 32) (M : SM.Idx → EReal) : EReal :=
  ∑ n : Fin 1048576, intraAt X sg M n

abbrev SA0 : Shape := ⟨4, ![1, 32, 1024, 1024]⟩
abbrev SA1 : Shape := ⟨4, ![1, 1, 1024, 1024]⟩

/-- The embeddings [1, 32, 1024, 1024] flattened to [32, N]: pixel `n` is row `n / 1024`, column `n % 1024`. -/
def embOf (x0 : SA0.Idx → EReal) : SE.Idx → EReal :=
  fun i => x0 (ValueIdx.ix4 (0 : Fin 1) (i 0)
    (⟨(i 1).val / 1024, by have h : (i 1).val < 1048576 := (i 1).isLt; omega⟩ : Fin 1024)
    (⟨(i 1).val % 1024, Nat.mod_lt _ (by norm_num)⟩ : Fin 1024))

/-- The segment id of pixel `n` in the ids [1, 1, 1024, 1024]. -/
def segOf (x1 : SA1.Idx → BitVec 32) (n : Fin 1048576) : BitVec 32 :=
  x1 (ValueIdx.ix4 (0 : Fin 1) (0 : Fin 1)
    (⟨n.val / 1024, by have h : n.val < 1048576 := n.isLt; omega⟩ : Fin 1024)
    (⟨n.val % 1024, Nat.mod_lt _ (by norm_num)⟩ : Fin 1024))

/-- The table of segment means of the two arguments. -/
def meansOf (x0 : SA0.Idx → EReal) (x1 : SA1.Idx → BitVec 32) : SM.Idx → EReal :=
  meansArr (sumsArr (embOf x0) (segOf x1)) (cntsArr (segOf x1))

/-- The kernel's last line: log(sum of exponentials) minus the mean intra term. -/
def lossOf (se si inter : EReal) : EReal := Ideal.log (se + inter) - Ideal.div si npix

end Cert.SegLoss

end
-- ==== Proof.Region0.lean ====
import proofs.«400441_j2886218023667_1_alg».proof.Proof.Gen.KernelIdeal.Frame
import proofs.«400441_j2886218023667_1_alg».proof.Proof.Spec
import Idealize.ShloMosaic.Lib.Pipeline.Value
import Idealize.ShloMosaic.Lib.Tactic
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Reg0

open Cert.KernelIdeal Cert.KernelIdeal.Gen Cert.SegLoss

variable (V : (c : Dev nD) → (b : Ref sig .tc) → Buf (Elt Ideal) ((c : Thread nD τ).loc b))

open Idealize.ShloMosaic.ValueIdx
open scoped BigOperators

/-! # Region 0: the per-segment sums and counts

The grid walks the 512 tiles of 2048 pixels. At each point the body builds the tile's one-hot block (segment `s` against
lane `j`: 1 when the lane's id is the word of `s`), contracts it with the embeddings' block over the lanes, sums it along
the lanes, and adds both to two buffers that the first point starts from zero. So after point `t` the buffers hold the sums
over the pixels below `2048 (t + 1)`, and after the last point, when they are written back, the sums over all the pixels. -/

section Pieces
variable {F : FTy → Type} [FloatOps F]

/-- The zero offsets of a whole-block access. -/
theorem hz : (![0, 0] : Fin 2 → Nat) = fun _ => 0 := funext fun a => by fin_cases a <;> rfl

/-- A later point leaves in the sums' buffer, which held `xo2`, `xo2` plus the tile's one-hot product. -/
theorem piece_B_2 (c : Dev nD) (i : grid0.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1024x1 .f32) (h4 : a4.IsWhole) (hc : ¬cond0_0 i)
    (x0 : Vec F S32x2048 .f32) (x1 : Vec F S1x2048 .i32) (xo2 : Vec F S1024x32 .f32) (xo3 : Vec F S1024x1 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S32x2048) hz,
    View.ld_unit_zero (S := S1x2048) hz, View.ld_unit_zero (S := S1024x32) hz]

/-- A later point leaves in the counts' buffer, which held `xo3`, `xo3` plus the tile's one-hot row sums. -/
theorem piece_B_3 (c : Dev nD) (i : grid0.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1024x1 .f32) (h4 : a4.IsWhole) (hc : ¬cond0_0 i)
    (x0 : Vec F S32x2048 .f32) (x1 : Vec F S1x2048 .i32) (xo2 : Vec F S1024x32 .f32) (xo3 : Vec F S1024x1 .f32) :
    out0_B_3 c i a1 h1 a2 h2 a3 h3 a4 h4 hc x0 x1 xo2 xo3 = k0_pay5 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread,
    View.ld_unit_zero (S := S1x2048) hz, View.ld_unit_zero (S := S1024x1) hz]

/-- The first point stores the zero block, reads it back, and leaves it plus the tile's one-hot product. -/
theorem piece_A_2 (c : Dev nD) (i : grid0.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1024x1 .f32) (h4 : a4.IsWhole) (hc : cond0_0 i)
    (x0 : Vec F S32x2048 .f32) (x1 : Vec F S1x2048 .i32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1024x32) hz, View.readCov_unit_zero (S := S1024x32) _ hz]
  simp only [View.readAt_eq_ld, h1.read_unread, h2.read_unread, View.ld_unit_zero (S := S32x2048) hz,
    View.ld_unit_zero (S := S1x2048) hz]

/-- The first point stores the zero column, reads it back, and leaves it plus the tile's one-hot row sums. -/
theorem piece_A_3 (c : Dev nD) (i : grid0.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1024x1 .f32) (h4 : a4.IsWhole) (hc : cond0_0 i)
    (x0 : Vec F S32x2048 .f32) (x1 : Vec F S1x2048 .i32) :
    out0_A_3 c i a1 h1 a2 h2 a3 h3 a4 h4 hc x0 x1 = k0_pay5 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1x2048) hz]

end Pieces

section Payloads

/-- A signed integer word read on the extended reals is its integer. -/
theorem sitofp_ideal {w : Nat} (b : BitVec w) : (FloatOps.sitofp (F := Ideal) .f32 b : EReal) = ((b.toInt : ℝ) : EReal) := rfl

/-- A one-bit word widened to 32 bits and read as a signed integer on the extended reals: 1 or 0. -/
theorem sitofp_bit (b : BitVec 1) : (FloatOps.sitofp (F := Ideal) .f32 (b.setWidth 32) : EReal) = if b = 1#1 then 1 else 0 := by
  rw [sitofp_ideal]
  rcases BitVec.eq_zero_or_eq_one b with h | h <;> subst h
  · rw [show ((0#1).setWidth 32).toInt = 0 from by decide, if_neg (by decide)]; simp
  · rw [show ((1#1).setWidth 32).toInt = 1 from by decide, if_pos rfl]; simp

/-- The one-hot the body builds, at segment `s` and lane `j`: 1 when the lane's id is the word of `s`. -/
theorem pay3_apply (x1 : Vec Ideal S1x2048 .i32) (s : Fin 1024) (j : Fin 2048) :
    k0_pay3 (F := Ideal) x1 (ix2 s j) = if BitVec.ofNat 32 s.val = x1 (ix2 (0 : Fin 1) j) then 1 else 0 := by
  unfold k0_pay3
  refine (sitofp_bit _).trans ?_
  have e1 : iota .tc S1024x2048 32 [0] iota_S1024x2048_d0_w32 (ix2 s j) = BitVec.ofNat 32 s.val :=
    iota_single_apply .tc S1024x2048 32 0 iota_S1024x2048_d0_w32 (ix2 s j)
  have e2 : broadcastTo S1024x2048 (shapeCast S1x2048 x1 shapeCasts_S1x2048_S1x2048) broadcasts_S1x2048_S1024x2048 (ix2 s j)
      = x1 (ix2 (0 : Fin 1) j) :=
    (broadcastTo_1b_ab_apply _ broadcasts_S1x2048_S1024x2048 s j).trans (congrFun (shapeCast_self x1 _) _)
  refine if_congr ?_ rfl rfl
  show IntOp.cmpi .eq _ _ = 1#1 ↔ _
  rw [IntOp.cmpi_eq, e1, e2]

/-- The product's left operand index at output `(s, ch)` and lane `k`: its row is the output's row … -/
theorem lhs_row (j : S1024x32.Idx) (k : dot_S1024x2048_S32x2048_S1024x32_1_1_0_0_n_n.contr.Idx) :
    (dot_S1024x2048_S32x2048_S1024x32_1_1_0_0_n_n.lhsIdx j k 0).val = (j 0).val := by
  simp [DotDims.lhsIdx, dot_S1024x2048_S32x2048_S1024x32_1_1_0_0_n_n]; rfl
/-- … and its lane is the contracted one. -/
theorem lhs_lane (j : S1024x32.Idx) (k : dot_S1024x2048_S32x2048_S1024x32_1_1_0_0_n_n.contr.Idx) :
    (dot_S1024x2048_S32x2048_S1024x32_1_1_0_0_n_n.lhsIdx j k 1).val = (k ⟨0, by decide⟩).val :=
  dot_S1024x2048_S32x2048_S1024x32_1_1_0_0_n_n.lhsIdx_val_of_single rfl j k
/-- The right operand's row is the output's column … -/
theorem rhs_row (j : S1024x32.Idx) (k : dot_S1024x2048_S32x2048_S1024x32_1_1_0_0_n_n.contr.Idx) :
    (dot_S1024x2048_S32x2048_S1024x32_1_1_0_0_n_n.rhsIdx j k 0).val = (j 1).val := by
  simp [DotDims.rhsIdx, dot_S1024x2048_S32x2048_S1024x32_1_1_0_0_n_n]; rfl
/-- … and its lane the contracted one. -/
theorem rhs_lane (j : S1024x32.Idx) (k : dot_S1024x2048_S32x2048_S1024x32_1_1_0_0_n_n.contr.Idx) :
    (dot_S1024x2048_S32x2048_S1024x32_1_1_0_0_n_n.rhsIdx j k 1).val = (k ⟨0, by decide⟩).val :=
  dot_S1024x2048_S32x2048_S1024x32_1_1_0_0_n_n.rhsIdx_val_of_single rfl j k

/-- The block product into the zero block, at segment `s` and channel `ch`: the sum over the tile's lanes. -/
theorem matmul_tile_apply (L : FVec Ideal S1024x2048 .bf16) (R : FVec Ideal S32x2048 .bf16) (s : Fin 1024) (ch : Fin 32) :
    matmul dot_S1024x2048_S32x2048_S1024x32_1_1_0_0_n_n none L R (constant (F := Ideal) S1024x32 .f32 0x00000000#32) (ix2 s ch)
      = ∑ j : Fin 2048, L (ix2 s j) * R (ix2 ch j) := by
  refine (Ideal.matmul_constant_zero_apply dot_S1024x2048_S32x2048_S1024x32_1_1_0_0_n_n none L R (ix2 s ch)).trans ?_
  rw [← Equiv.sum_comp (contrEquiv1 dot_S1024x2048_S32x2048_S1024x32_1_1_0_0_n_n 2048 rfl rfl).symm]
  refine Finset.sum_congr rfl fun c _ => ?_
  have c2 := contrEquiv1_symm_val dot_S1024x2048_S32x2048_S1024x32_1_1_0_0_n_n 2048 rfl rfl c
  have l2 : dot_S1024x2048_S32x2048_S1024x32_1_1_0_0_n_n.lhsIdx (ix2 s ch)
      ((contrEquiv1 dot_S1024x2048_S32x2048_S1024x32_1_1_0_0_n_n 2048 rfl rfl).symm c) = ix2 s c := by
    funext ax; apply Fin.ext
    match ax with
    | ⟨0, _⟩ => exact lhs_row _ _
    | ⟨1, _⟩ => exact (lhs_lane _ _).trans c2
  have r2 : dot_S1024x2048_S32x2048_S1024x32_1_1_0_0_n_n.rhsIdx (ix2 s ch)
      ((contrEquiv1 dot_S1024x2048_S32x2048_S1024x32_1_1_0_0_n_n 2048 rfl rfl).symm c) = ix2 ch c := by
    funext ax; apply Fin.ext
    match ax with
    | ⟨0, _⟩ => exact rhs_row _ _
    | ⟨1, _⟩ => exact (rhs_lane _ _).trans c2
  rw [l2, r2]

/-- What a point leaves in the sums at segment `s`, channel `ch`: what the buffer held plus, over the tile's lanes,
    one-hot times embedding. -/
theorem pay4_apply (x0 : Vec Ideal S32x2048 .f32) (x1 : Vec Ideal S1x2048 .i32) (acc : Vec Ideal S1024x32 .f32)
    (s : Fin 1024) (ch : Fin 32) :
    k0_pay4 (F := Ideal) x0 x1 acc (ix2 s ch)
      = acc (ix2 s ch) + ∑ j : Fin 2048, (if BitVec.ofNat 32 s.val = x1 (ix2 (0 : Fin 1) j) then (1 : EReal) else 0) * x0 (ix2 ch j) := by
  unfold k0_pay4
  refine (addf_apply _ _ _).trans ?_
  refine congrArg₂ (· + ·) (congrFun (shapeCast_self acc _) _) ?_
  refine (matmul_tile_apply _ _ s ch).trans ?_
  refine Finset.sum_congr rfl fun j _ => ?_
  refine congrArg₂ (· * ·) ?_ ?_
  · show k0_pay3 (F := Ideal) x1 (ix2 s j) = _
    exact pay3_apply x1 s j
  · show shapeCast S32x2048 x0 shapeCasts_S32x2048_S32x2048 (ix2 ch j) = _
    exact congrFun (shapeCast_self x0 _) _

/-- A lane sum of a [1024, 2048] block along its lanes, at row `s`, on the extended reals: the sum of the row. -/
theorem rowsum_apply (src : FVec Ideal S1024x2048 .f32) (hφ : FKind.Formats .f32)
    (hacc : (0x00000000#32 : BitVec FTy.f32.bits) = FKind.add.neutral .f32 hφ) (s : Fin 1024) :
    multiReduction .add [1] S1024 src 0x00000000#32 reduces_S1024x2048_S1024 hφ hacc (ix1 s) = ∑ j : Fin 2048, src (ix2 s j) :=
  (Ideal.multiReduction_add_single src 0x00000000#32 reduces_S1024x2048_S1024 hφ hacc (ix1 s)).trans
    (Finset.sum_congr rfl fun k _ => congrArg src (funext fun ax => Fin.ext (by
      match ax with
      | ⟨0, _⟩ => rfl
      | ⟨1, _⟩ => rfl)))

/-- A [1024] vector cast to the column [1024, 1] reads, at `(s, u)`, the vector at `s`. -/
theorem column_apply {α : Type} (v : S1024.Idx → α) (s : Fin 1024) (u : Fin 1) :
    shapeCast S1024x1 v shapeCasts_S1024_S1024x1 (ix2 s u) = v (ix1 s) :=
  shapeCast_apply v shapeCasts_S1024_S1024x1 (ix2 s u) (ix1 s) (by
    have hu : u.val = 0 := by omega
    rw [Shape.rowMajor_val_two, Shape.rowMajor_val_one]
    show s.val = s.val * 1 + u.val
    omega)

/-- What a point leaves in the counts at segment `s`: what the buffer held plus the number of the tile's lanes carrying `s`. -/
theorem pay5_apply (x1 : Vec Ideal S1x2048 .i32) (cnt : Vec Ideal S1024x1 .f32) (s : Fin 1024) (u : Fin 1) :
    k0_pay5 (F := Ideal) x1 cnt (ix2 s u)
      = cnt (ix2 s u) + ∑ j : Fin 2048, (if BitVec.ofNat 32 s.val = x1 (ix2 (0 : Fin 1) j) then (1 : EReal) else 0) := by
  unfold k0_pay5
  refine (addf_apply _ _ _).trans ?_
  refine congrArg₂ (· + ·) (congrFun (shapeCast_self cnt _) _) ?_
  refine (column_apply _ s u).trans ?_
  refine (rowsum_apply _ _ _ s).trans ?_
  exact Finset.sum_congr rfl fun j _ => pay3_apply x1 s j

end Payloads

section Prefix

/-- The sum of `f` over the pixels below `P`. -/
def prefSum (f : Fin 1048576 → EReal) (P : ℕ) : EReal :=
  ∑ k ∈ Finset.range P, (if h : k < 1048576 then f ⟨k, h⟩ else 0)

theorem prefSum_zero (f : Fin 1048576 → EReal) : prefSum f 0 = 0 := Finset.sum_range_zero _

/-- Lane `j` of tile `t` is a pixel. -/
theorem tile_lt {t : ℕ} (ht : t < 512) (j : Fin 2048) : t * 2048 + j.val < 1048576 := by
  have := j.isLt; omega

/-- The pixels below tile `t + 1` are those below tile `t` and tile `t`'s 2048 lanes. -/
theorem prefSum_tile (f : Fin 1048576 → EReal) {t : ℕ} (ht : t < 512) :
    prefSum f ((t + 1) * 2048) = prefSum f (t * 2048) + ∑ j : Fin 2048, f ⟨t * 2048 + j.val, tile_lt ht j⟩ := by
  unfold prefSum
  rw [Nat.succ_mul t 2048, Finset.sum_range_add]
  refine congrArg (_ + ·) ?_
  rw [Finset.sum_range]
  exact Finset.sum_congr rfl fun j _ => dif_pos (tile_lt ht j)

/-- Below the last tile's end are all the pixels. -/
theorem prefSum_all (f : Fin 1048576 → EReal) : prefSum f (512 * 2048) = ∑ n : Fin 1048576, f n := by
  unfold prefSum
  rw [show 512 * 2048 = 1048576 from by norm_num, Finset.sum_range]
  exact Finset.sum_congr rfl fun n _ => dif_pos n.isLt

end Prefix

section Step

/-- One point's step of the sums, over literal blocks: when the embeddings' block and the ids' block are tile `t` of the
    arrays and the buffer holds the sum over the pixels below tile `t`, the body leaves the sum over those below tile `t + 1`. -/
theorem sums_step (X : SE.Idx → EReal) (Sg : SK.Idx → BitVec 32)
    (x0 : Vec Ideal S32x2048 .f32) (x1 : Vec Ideal S1x2048 .i32) (acc : Vec Ideal S1024x32 .f32) {t : ℕ} (ht : t < 512)
    (hx0 : ∀ (ch : Fin 32) (j : Fin 2048), x0 (ix2 ch j) = X (ix2 ch ⟨t * 2048 + j.val, tile_lt ht j⟩))
    (hx1 : ∀ j : Fin 2048, x1 (ix2 (0 : Fin 1) j) = Sg (ix2 (0 : Fin 1) ⟨t * 2048 + j.val, tile_lt ht j⟩))
    (s : Fin 1024) (ch : Fin 32)
    (hacc : acc (ix2 s ch) = prefSum (fun p => hot (segK Sg) s p * embAt X ch p) (t * 2048)) :
    k0_pay4 (F := Ideal) x0 x1 acc (ix2 s ch) = prefSum (fun p => hot (segK Sg) s p * embAt X ch p) ((t + 1) * 2048) := by
  rw [pay4_apply, prefSum_tile _ ht, hacc]
  refine congrArg (_ + ·) (Finset.sum_congr rfl fun j _ => ?_)
  rw [hx0, hx1]
  rfl

/-- One point's step of the counts, likewise. -/
theorem cnts_step (Sg : SK.Idx → BitVec 32) (x1 : Vec Ideal S1x2048 .i32) (cnt : Vec Ideal S1024x1 .f32) {t : ℕ} (ht : t < 512)
    (hx1 : ∀ j : Fin 2048, x1 (ix2 (0 : Fin 1) j) = Sg (ix2 (0 : Fin 1) ⟨t * 2048 + j.val, tile_lt ht j⟩))
    (s : Fin 1024) (u : Fin 1)
    (hcnt : cnt (ix2 s u) = prefSum (fun p => hot (segK Sg) s p) (t * 2048)) :
    k0_pay5 (F := Ideal) x1 cnt (ix2 s u) = prefSum (fun p => hot (segK Sg) s p) ((t + 1) * 2048) := by
  rw [pay5_apply, prefSum_tile _ ht, hcnt]
  refine congrArg (_ + ·) (Finset.sum_congr rfl fun j _ => ?_)
  rw [hx1]
  rfl

/-- The zero block the first point stores reads 0 everywhere. -/
theorem pay1_apply (i : S1024x32.Idx) : k0_pay1 (F := Ideal) i = 0 := Ideal.ofBits_zero_f32
/-- The zero column the first point stores reads 0 everywhere. -/
theorem pay2_apply (i : S1024x1.Idx) : k0_pay2 (F := Ideal) i = 0 := Ideal.ofBits_zero_f32

end Step

section Blocks

/-- The embeddings' and the ids' windows step along the pixels: block (0, t) at point t. -/
theorem idx_in0 : ∀ t : Fin cfg0.N, win0_0.index t 0 = 0 ∧ win0_0.index t 1 = t.val :=
  (by decide +kernel : ∀ t : Fin grid0.N, win0_0.index t 0 = 0 ∧ win0_0.index t 1 = t.val)
theorem idx_in1 : ∀ t : Fin cfg0.N, win0_1.index t 0 = 0 ∧ win0_1.index t 1 = t.val :=
  (by decide +kernel : ∀ t : Fin grid0.N, win0_1.index t 0 = 0 ∧ win0_1.index t 1 = t.val)
/-- The two results' windows stay on block (0, 0), the whole array. -/
theorem idx_out2 : ∀ t : Fin cfg0.N, win0_2.index t 0 = 0 ∧ win0_2.index t 1 = 0 :=
  (by decide +kernel : ∀ t : Fin grid0.N, win0_2.index t 0 = 0 ∧ win0_2.index t 1 = 0)
theorem idx_out3 : ∀ t : Fin cfg0.N, win0_3.index t 0 = 0 ∧ win0_3.index t 1 = 0 :=
  (by decide +kernel : ∀ t : Fin grid0.N, win0_3.index t 0 = 0 ∧ win0_3.index t 1 = 0)

/-- The embeddings' block at point `t`, as a [32, 2048] vector, -/
abbrev xblk (c : Dev nD) (t : Fin cfg0.N) : Vec Ideal S32x2048 .f32 := iblk0 V c 0 t
/-- the ids' block, as a [1, 2048] vector, -/
abbrev sblk (c : Dev nD) (t : Fin cfg0.N) : Vec Ideal S1x2048 .i32 := iblk0 V c 1 t
/-- the embeddings as the region finds them, [32, N], -/
abbrev xarr (c : Dev nD) : SE.Idx → EReal := V c main_v0
/-- and the ids, [1, N]. -/
abbrev sarr (c : Dev nD) : SK.Idx → BitVec 32 := V c main_v1

/-- Lane `j` of the embeddings' block at point `t` is pixel `2048 t + j`. -/
theorem xblk_apply (c : Dev nD) (t : Fin cfg0.N) (ch : Fin 32) (j : Fin 2048) (h : t.val * 2048 + j.val < 1048576) :
    xblk V c t (ix2 ch j) = xarr V c (ix2 ch ⟨t.val * 2048 + j.val, h⟩) := by
  show iblk0 V c 0 t (ix2 ch j) = _
  unfold iblk0
  rw [View.read_apply]
  show V c main_v0 _ = V c main_v0 _
  congr 1
  funext a
  apply Fin.ext
  match a with
  | ⟨0, _⟩ => show win0_0.index t 0 * 32 + 1 * ch.val = ch.val; rw [(idx_in0 t).1]; omega
  | ⟨1, _⟩ => show win0_0.index t 1 * 2048 + 1 * j.val = t.val * 2048 + j.val; rw [(idx_in0 t).2]; omega

/-- Lane `j` of the ids' block at point `t` is pixel `2048 t + j`. -/
theorem sblk_apply (c : Dev nD) (t : Fin cfg0.N) (j : Fin 2048) (h : t.val * 2048 + j.val < 1048576) :
    sblk V c t (ix2 (0 : Fin 1) j) = sarr V c (ix2 (0 : Fin 1) ⟨t.val * 2048 + j.val, h⟩) := by
  show iblk0 V c 1 t (ix2 (0 : Fin 1) j) = _
  unfold iblk0
  rw [View.read_apply]
  show V c main_v1 _ = V c main_v1 _
  congr 1
  funext a
  apply Fin.ext
  match a with
  | ⟨0, _⟩ => show win0_1.index t 0 * 1 + 1 * 0 = 0; rw [(idx_in1 t).1]
  | ⟨1, _⟩ => show win0_1.index t 1 * 2048 + 1 * j.val = t.val * 2048 + j.val; rw [(idx_in1 t).2]; omega

end Blocks

section Invariant

/-- The summand of the sums at segment `s`, channel `ch`: pixel `p`'s embedding if it carries `s`. -/
abbrev sumF (c : Dev nD) (s : Fin 1024) (ch : Fin 32) : Fin 1048576 → EReal :=
  fun p => hot (segK (sarr V c)) s p * embAt (xarr V c) ch p
/-- The summand of the counts at segment `s`: 1 if pixel `p` carries `s`. -/
abbrev cntF (c : Dev nD) (s : Fin 1024) : Fin 1048576 → EReal := fun p => hot (segK (sarr V c)) s p

/-- After point `n` the two buffers hold the sums and the counts over the pixels of tiles 0 … n: by induction on the
    point, the first point from the zero blocks, each later one from what the point before left. -/
theorem outsAt_eq (c : Dev nD) : ∀ (n : ℕ) (h : n < cfg0.N),
    (∀ (s : Fin 1024) (ch : Fin 32), (outsAt0 V c n h).1 (ix2 s ch) = prefSum (sumF V c s ch) ((n + 1) * 2048))
    ∧ (∀ (s : Fin 1024) (u : Fin 1), (outsAt0 V c n h).2 (ix2 s u) = prefSum (cntF V c s) ((n + 1) * 2048))
  | 0, h => by
    have h0 : (⟨0, h⟩ : Fin cfg0.N).val % 512 = 0 := rfl
    rw [outsAt0_A V c ⟨0, h⟩ h0]
    dsimp only
    constructor
    · intro s ch
      refine (congrFun (piece_A_2 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) ((hcond0_0 ⟨0, h⟩).mpr h0) (iblk0 V c 0 ⟨0, h⟩) (iblk0 V c 1 ⟨0, h⟩))
        (ix2 s ch)).trans ?_
      refine sums_step (xarr V c) (sarr V c) (xblk V c ⟨0, h⟩) (sblk V c ⟨0, h⟩) (k0_pay1 (F := Ideal)) (t := 0) (by omega) ?_ ?_ s ch ?_
      · intro ch j; exact xblk_apply V c ⟨0, h⟩ ch j _
      · intro j; exact sblk_apply V c ⟨0, h⟩ j _
      · rw [pay1_apply, Nat.zero_mul, prefSum_zero]
    · intro s u
      refine (congrFun (piece_A_3 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) ((hcond0_0 ⟨0, h⟩).mpr h0) (iblk0 V c 0 ⟨0, h⟩) (iblk0 V c 1 ⟨0, h⟩))
        (ix2 s u)).trans ?_
      refine cnts_step (sarr V c) (sblk V c ⟨0, h⟩) (k0_pay2 (F := Ideal)) (t := 0) (by omega) ?_ s u ?_
      · intro j; exact sblk_apply V c ⟨0, h⟩ j _
      · rw [pay2_apply, Nat.zero_mul, prefSum_zero]
  | n + 1, h => by
    have hN : cfg0.N = 512 := N_0
    have hn : n + 1 < 512 := by omega
    have hB : ¬(⟨n + 1, h⟩ : Fin cfg0.N).val % 512 = 0 := by dsimp only; omega
    obtain ⟨ih1, ih2⟩ := outsAt_eq c n (Nat.lt_of_succ_lt h)
    rw [outsAt0_B V c ⟨n + 1, h⟩ hB]
    dsimp only
    constructor
    · intro s ch
      refine (congrFun (piece_B_2 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩)
        (fun hh => hB ((hcond0_0 ⟨n + 1, h⟩).mp hh)) (iblk0 V c 0 ⟨n + 1, h⟩) (iblk0 V c 1 ⟨n + 1, h⟩)
        (outsAt0 V c n (Nat.lt_of_succ_lt h)).1 (outsAt0 V c n (Nat.lt_of_succ_lt h)).2) (ix2 s ch)).trans ?_
      refine sums_step (xarr V c) (sarr V c) (xblk V c ⟨n + 1, h⟩) (sblk V c ⟨n + 1, h⟩) (outsAt0 V c n (Nat.lt_of_succ_lt h)).1
        (t := n + 1) hn ?_ ?_ s ch (ih1 s ch)
      · intro ch j; exact xblk_apply V c ⟨n + 1, h⟩ ch j _
      · intro j; exact sblk_apply V c ⟨n + 1, h⟩ j _
    · intro s u
      refine (congrFun (piece_B_3 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩)
        (fun hh => hB ((hcond0_0 ⟨n + 1, h⟩).mp hh)) (iblk0 V c 0 ⟨n + 1, h⟩) (iblk0 V c 1 ⟨n + 1, h⟩)
        (outsAt0 V c n (Nat.lt_of_succ_lt h)).1 (outsAt0 V c n (Nat.lt_of_succ_lt h)).2) (ix2 s u)).trans ?_
      refine cnts_step (sarr V c) (sblk V c ⟨n + 1, h⟩) (outsAt0 V c n (Nat.lt_of_succ_lt h)).2 (t := n + 1) hn ?_ s u (ih2 s u)
      · intro j; exact sblk_apply V c ⟨n + 1, h⟩ j _

end Invariant

section Final

/-- The last point of the grid, the one that writes the two results back. -/
abbrev tlast : Fin cfg0.N := ⟨511, by rw [show cfg0.N = 512 from N_0]; decide⟩

/-- After the last point the sums' buffer holds the sums over all the pixels, -/
theorem sums_last (c : Dev nD) (t : Fin cfg0.N) (ht : t.val = 511) :
    (outsAt0 V c t.val t.isLt).1 = sumsArr (xarr V c) (segK (sarr V c)) := by
  funext i
  obtain ⟨s, ch, rfl⟩ : ∃ (s : Fin 1024) (ch : Fin 32), i = ix2 s ch := ⟨i 0, i 1, eq_ix2 i⟩
  refine ((outsAt_eq V c t.val t.isLt).1 s ch).trans ?_
  rw [ht]
  exact prefSum_all (sumF V c s ch)

/-- and the counts' buffer the counts over all the pixels. -/
theorem cnts_last (c : Dev nD) (t : Fin cfg0.N) (ht : t.val = 511) :
    (outsAt0 V c t.val t.isLt).2 = cntsArr (segK (sarr V c)) := by
  funext i
  obtain ⟨s, u, rfl⟩ : ∃ (s : Fin 1024) (u : Fin 1), i = ix2 s u := ⟨i 0, i 1, eq_ix2 i⟩
  refine ((outsAt_eq V c t.val t.isLt).2 s u).trans ?_
  rw [ht]
  exact prefSum_all (cntF V c s)

/-- The one write-back of the sums, at the last point, writes them: block (0, 0) of the [1024, 32] array, read through
    zero offsets, is the array. -/
theorem flushed2_eq (c : Dev nD) (t : Fin cfg0.N) (hf : (cfg0.win 2).flush t = true) :
    (dat0 V c).flushed 2 t = ((cfg0.win 2).blk t).view.read (Elt Ideal) (sumsArr (xarr V c) (segK (sarr V c))) := by
  have hN : cfg0.N = 512 := N_0
  have h511 : t.val = 511 := by have := (flush0_2 t).mp hf; have := t.isLt; omega
  show (cfg0.win 2).cut (grid0.coords t) ((dat0 V c).after 2 t) = _
  rw [after0_2, sums_last V c t h511]
  have hz' : (fun a => win0_2.index t a * main_v2_0.ty.shape.size a) = fun _ => 0 := funext fun a => by
    match a with
    | ⟨0, _⟩ => show win0_2.index t 0 * 1024 = 0; rw [(idx_out2 t).1]
    | ⟨1, _⟩ => show win0_2.index t 1 * 32 = 0; rw [(idx_out2 t).2]
  exact (Memref.read_access_unit_zero (Elt Ideal) main_v2_0 hz' (fun a => by rw [congrFun hz' a]; simp)
    (sumsArr (xarr V c) (segK (sarr V c)))).symm

/-- The one write-back of the counts likewise. -/
theorem flushed3_eq (c : Dev nD) (t : Fin cfg0.N) (hf : (cfg0.win 3).flush t = true) :
    (dat0 V c).flushed 3 t = ((cfg0.win 3).blk t).view.read (Elt Ideal) (cntsArr (segK (sarr V c))) := by
  have hN : cfg0.N = 512 := N_0
  have h511 : t.val = 511 := by have := (flush0_3 t).mp hf; have := t.isLt; omega
  show (cfg0.win 3).cut (grid0.coords t) ((dat0 V c).after 3 t) = _
  rw [after0_3, cnts_last V c t h511]
  have hz' : (fun a => win0_3.index t a * main_v2_1.ty.shape.size a) = fun _ => 0 := funext fun a => by
    match a with
    | ⟨0, _⟩ => show win0_3.index t 0 * 1024 = 0; rw [(idx_out3 t).1]
    | ⟨1, _⟩ => show win0_3.index t 1 * 1 = 0; rw [(idx_out3 t).2]
  exact (Memref.read_access_unit_zero (Elt Ideal) main_v2_1 hz' (fun a => by rw [congrFun hz' a]; simp)
    (cntsArr (segK (sarr V c)))).symm

end Final

/-- Region 0 leaves, in its first result array, the per-segment sums of the embeddings it was entered with. -/
theorem sums_final (c : Dev nD) :
    (dat0 (F := Ideal) V c).arrAt 2 cfg0.N = sumsArr (V c main_v0) (segK (V c main_v1)) :=
  (dat0 V c).arrAt_eq_of_cover 2 (sumsArr (xarr V c) (segK (sarr V c))) (flushed2_eq V c) fun i =>
    ⟨tlast, (flush0_2 tlast).mpr rfl, by
      show i ∈ ((View.whole main_v2_0).slice (win0_2.rect tlast)).set
      rw [View.set_slice_whole, Rect.mem_set_unit]
      intro a
      have h0 : (i 0 : Nat) < 1024 := (i 0).isLt
      have h1 : (i 1 : Nat) < 32 := (i 1).isLt
      match a with
      | ⟨0, _⟩ =>
        show win0_2.index tlast 0 * win0_2.size 0 ≤ (i 0 : Nat)
          ∧ (i 0 : Nat) < win0_2.index tlast 0 * win0_2.size 0 + win0_2.xsize (grid0.coords tlast) 0
        rw [(idx_out2 tlast).1, show win0_2.xsize (grid0.coords tlast) 0 = 1024 from by decide +kernel]; omega
      | ⟨1, _⟩ =>
        show win0_2.index tlast 1 * win0_2.size 1 ≤ (i 1 : Nat)
          ∧ (i 1 : Nat) < win0_2.index tlast 1 * win0_2.size 1 + win0_2.xsize (grid0.coords tlast) 1
        rw [(idx_out2 tlast).2, show win0_2.xsize (grid0.coords tlast) 1 = 32 from by decide +kernel]; omega⟩

/-- and in its second the per-segment pixel counts. -/
theorem cnts_final (c : Dev nD) :
    (dat0 (F := Ideal) V c).arrAt 3 cfg0.N = cntsArr (segK (V c main_v1)) :=
  (dat0 V c).arrAt_eq_of_cover 3 (cntsArr (segK (sarr V c))) (flushed3_eq V c) fun i =>
    ⟨tlast, (flush0_3 tlast).mpr rfl, by
      show i ∈ ((View.whole main_v2_1).slice (win0_3.rect tlast)).set
      rw [View.set_slice_whole, Rect.mem_set_unit]
      intro a
      have h0 : (i 0 : Nat) < 1024 := (i 0).isLt
      have h1 : (i 1 : Nat) < 1 := (i 1).isLt
      match a with
      | ⟨0, _⟩ =>
        show win0_3.index tlast 0 * win0_3.size 0 ≤ (i 0 : Nat)
          ∧ (i 0 : Nat) < win0_3.index tlast 0 * win0_3.size 0 + win0_3.xsize (grid0.coords tlast) 0
        rw [(idx_out3 tlast).1, show win0_3.xsize (grid0.coords tlast) 0 = 1024 from by decide +kernel]; omega
      | ⟨1, _⟩ =>
        show win0_3.index tlast 1 * win0_3.size 1 ≤ (i 1 : Nat)
          ∧ (i 1 : Nat) < win0_3.index tlast 1 * win0_3.size 1 + win0_3.xsize (grid0.coords tlast) 1
        rw [(idx_out3 tlast).2, show win0_3.xsize (grid0.coords tlast) 1 = 1 from by decide +kernel]; omega⟩

end Cert.KernelIdeal.Reg0

end
-- ==== Proof.Region1.lean ====
import proofs.«400441_j2886218023667_1_alg».proof.Proof.Gen.KernelIdeal.Frame
import proofs.«400441_j2886218023667_1_alg».proof.Proof.Spec
import Idealize.ShloMosaic.Lib.Pipeline.Value
import Idealize.ShloMosaic.Lib.Tactic
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Reg1

open Cert.KernelIdeal Cert.KernelIdeal.Gen Cert.SegLoss

variable (V : (c : Dev nD) → (b : Ref sig .tc) → Buf (Elt Ideal) ((c : Thread nD τ).loc b))

/-! ## What one run of the body leaves in the two result blocks

The body, run on whole staging buffers holding the embeddings' tile x0, the ids' tile x1 and the table x2, stores into
each result block its old contents plus the tile's sum (of the exponentials, of the intra terms). At the first point
the old contents are the zero block it has just stored there. -/

section Pieces
variable {F : FTy → Type} [FloatOps F]

theorem hz : (![0, 0] : Fin 2 → Nat) = fun _ => 0 := funext fun a => by fin_cases a <;> rfl

/-- Away from the first point the first result block ends as its old contents plus the tile's sum of exponentials. -/
theorem out_B_3 (c : Dev nD) (i : grid1.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1x1 .f32) (h4 : a4.IsWhole) (a5 : Memref sig .tc .vmem S1x1 .f32) (h5 : a5.IsWhole)
    (hc : ¬cond1_0 i) (x0 : Vec F S32x2048 .f32) (x1 : Vec F S1x2048 .i32) (x2 : Vec F S1024x32 .f32)
    (xo3 xo4 : Vec F S1x1 .f32) :
    out1_B_3 c i a1 h1 a2 h2 a3 h3 a4 h4 a5 h5 hc x0 x1 x2 xo3 xo4 = k1_pay1 (k1_pay6 xo3) (k1_pay7 x0 x1 x2) := by
  unfold out1_B_3
  rw [View.read_writes_eq_canon _ _ _ (cover1_B_3 c i a1 h1 a2 h2 a3 h3 a4 h4 a5 h5 hc x0 x1 x2 xo3 xo4)]
  unfold kernelRun1_B
  dsimp only
  sl_unfold_words
  rw [View.canon_unit_zero hz]
  simp only [View.readAt_eq_ld, h1.read_unread, h2.read_unread, h3.read_unread, h4.read_unread, h5.read_unread,
    View.ld_unit_zero (S := S32x2048) hz, View.ld_unit_zero (S := S1x2048) hz, View.ld_unit_zero (S := S1024x32) hz,
    View.ld_unit_zero (S := S1x1) hz]

/-- Away from the first point the second result block ends as its old contents plus the tile's sum of intra terms. -/
theorem out_B_4 (c : Dev nD) (i : grid1.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1x1 .f32) (h4 : a4.IsWhole) (a5 : Memref sig .tc .vmem S1x1 .f32) (h5 : a5.IsWhole)
    (hc : ¬cond1_0 i) (x0 : Vec F S32x2048 .f32) (x1 : Vec F S1x2048 .i32) (x2 : Vec F S1024x32 .f32)
    (xo3 xo4 : Vec F S1x1 .f32) :
    out1_B_4 c i a1 h1 a2 h2 a3 h3 a4 h4 a5 h5 hc x0 x1 x2 xo3 xo4 = k1_pay2 (k1_pay5 x0 x1 x2) xo4 := by
  unfold out1_B_4
  rw [View.read_writes_eq_canon _ _ _ (cover1_B_4 c i a1 h1 a2 h2 a3 h3 a4 h4 a5 h5 hc x0 x1 x2 xo3 xo4)]
  unfold kernelRun1_B
  dsimp only
  sl_unfold_words
  rw [View.canon_unit_zero hz]
  simp only [View.readAt_eq_ld, h1.read_unread, h2.read_unread, h3.read_unread, h4.read_unread, h5.read_unread,
    View.ld_unit_zero (S := S32x2048) hz, View.ld_unit_zero (S := S1x2048) hz, View.ld_unit_zero (S := S1024x32) hz,
    View.ld_unit_zero (S := S1x1) hz]

/-- At the first point the first result block is first set to the zero block, then updated: zero plus the tile's sum. -/
theorem out_A_3 (c : Dev nD) (i : grid1.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1x1 .f32) (h4 : a4.IsWhole) (a5 : Memref sig .tc .vmem S1x1 .f32) (h5 : a5.IsWhole)
    (hc : cond1_0 i) (x0 : Vec F S32x2048 .f32) (x1 : Vec F S1x2048 .i32) (x2 : Vec F S1024x32 .f32) :
    out1_A_3 c i a1 h1 a2 h2 a3 h3 a4 h4 a5 h5 hc x0 x1 x2 = k1_pay1 (k1_pay6 (k1_pay3 (F := F))) (k1_pay7 x0 x1 x2) := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S32x2048) hz, View.ld_unit_zero (S := S1x2048) hz, View.ld_unit_zero (S := S1024x32) hz,
    View.ld_unit_zero (S := S1x1) hz]

/-- At the first point the second result block likewise: zero plus the tile's sum of intra terms. -/
theorem out_A_4 (c : Dev nD) (i : grid1.Coords) (a1 : Memref sig .tc .vmem S32x2048 .f32) (h1 : a1.IsWhole)
    (a2 : Memref sig .tc .vmem S1x2048 .i32) (h2 : a2.IsWhole) (a3 : Memref sig .tc .vmem S1024x32 .f32) (h3 : a3.IsWhole)
    (a4 : Memref sig .tc .vmem S1x1 .f32) (h4 : a4.IsWhole) (a5 : Memref sig .tc .vmem S1x1 .f32) (h5 : a5.IsWhole)
    (hc : cond1_0 i) (x0 : Vec F S32x2048 .f32) (x1 : Vec F S1x2048 .i32) (x2 : Vec F S1024x32 .f32) :
    out1_A_4 c i a1 h1 a2 h2 a3 h3 a4 h4 a5 h5 hc x0 x1 x2 = k1_pay2 (k1_pay5 x0 x1 x2) (k1_pay4 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S32x2048) hz, View.ld_unit_zero (S := S1x2048) hz, View.ld_unit_zero (S := S1024x32) hz,
    View.ld_unit_zero (S := S1x1) hz]

end Pieces

/-! ## The tile's arithmetic read at a pixel

The one-hot block compares a row counter with the tile's ids; the table, contracted with it over the 1024 segments,
gives each pixel its segment's row; the three channel sums, the clamped norms and the two divisions are the cosine. -/

section Payload
open Idealize.ShloMosaic.ValueIdx

/-- The product contracts axis 0 of the table with axis 0 of the one-hot block: on the table's side the contracted
    coordinate is the segment, -/
theorem lhs_seg (j : S32x2048.Idx) (k : dot_S1024x32_S1024x2048_S32x2048_0_0_1_1_n_n.contr.Idx) :
    (dot_S1024x32_S1024x2048_S32x2048_0_0_1_1_n_n.lhsIdx j k 0).val = (k ⟨0, by decide⟩).val :=
  dot_S1024x32_S1024x2048_S32x2048_0_0_1_1_n_n.lhsIdx_val_of_single rfl j k
/-- and the kept coordinate is the result's channel; -/
theorem lhs_chan (j : S32x2048.Idx) (k : dot_S1024x32_S1024x2048_S32x2048_0_0_1_1_n_n.contr.Idx) :
    (dot_S1024x32_S1024x2048_S32x2048_0_0_1_1_n_n.lhsIdx j k 1).val = (j 0).val := by
  unfold DotDims.lhsIdx
  rw [dif_neg (show ¬(1 : Fin S1024x32.rank) ∈ dot_S1024x32_S1024x2048_S32x2048_0_0_1_1_n_n.lhsBatch by decide),
    dif_pos (show (1 : Fin S1024x32.rank) ∈ dot_S1024x32_S1024x2048_S32x2048_0_0_1_1_n_n.lhsNonContracting by decide)]
  rfl
/-- on the one-hot block's side the contracted coordinate is the segment, -/
theorem rhs_seg (j : S32x2048.Idx) (k : dot_S1024x32_S1024x2048_S32x2048_0_0_1_1_n_n.contr.Idx) :
    (dot_S1024x32_S1024x2048_S32x2048_0_0_1_1_n_n.rhsIdx j k 0).val = (k ⟨0, by decide⟩).val :=
  dot_S1024x32_S1024x2048_S32x2048_0_0_1_1_n_n.rhsIdx_val_of_single rfl j k
/-- and the kept coordinate is the result's pixel. -/
theorem rhs_pix (j : S32x2048.Idx) (k : dot_S1024x32_S1024x2048_S32x2048_0_0_1_1_n_n.contr.Idx) :
    (dot_S1024x32_S1024x2048_S32x2048_0_0_1_1_n_n.rhsIdx j k 1).val = (j 1).val := by
  unfold DotDims.rhsIdx
  rw [dif_neg (show ¬(1 : Fin S1024x2048.rank) ∈ dot_S1024x32_S1024x2048_S32x2048_0_0_1_1_n_n.rhsBatch by decide),
    dif_pos (show (1 : Fin S1024x2048.rank) ∈ dot_S1024x32_S1024x2048_S32x2048_0_0_1_1_n_n.rhsNonContracting by decide)]
  rfl

/-- The one-hot block of a tile of ids. -/
def oneHot (x1 : Vec Ideal S1x2048 .i32) : FVec Ideal S1024x2048 .bf16 :=
  truncf .bf16 (sitofp .f32 (extui 32 (cmpi .eq (iota .tc S1024x2048 32 [0] iota_S1024x2048_d0_w32)
    (broadcastTo S1024x2048 (shapeCast S1x2048 x1 shapeCasts_S1x2048_S1x2048) broadcasts_S1x2048_S1024x2048)) natLt_1_32))
    bitsLt_bf16_f32

/-- At (s, j) it is 1 when pixel j of the tile carries segment s, else 0: the row counter at (s, j) is the word of s,
    the comparison's bit widened and read as a signed integer is 0 or 1. -/
theorem oneHot_apply (x1 : Vec Ideal S1x2048 .i32) (s : Fin 1024) (j : Fin 2048) :
    oneHot x1 (ix2 s j) = if BitVec.ofNat 32 s.val = x1 (ix2 (0 : Fin 1) j) then 1 else 0 := by
  show FloatOps.sitofp (F := Ideal) .f32 ((IntOp.cmpi .eq (iota .tc S1024x2048 32 [0] iota_S1024x2048_d0_w32 (ix2 s j))
    (broadcastTo S1024x2048 (shapeCast S1x2048 x1 shapeCasts_S1x2048_S1x2048) broadcasts_S1x2048_S1024x2048 (ix2 s j))).setWidth 32) = _
  rw [iota_single_apply, broadcastTo_1b_ab_apply, shapeCast_self]
  show ((((IntOp.cmpi .eq (BitVec.ofNat 32 s.val) (x1 (ix2 (0 : Fin 1) j))).setWidth 32).toInt : ℝ) : EReal) = _
  by_cases h : BitVec.ofNat 32 s.val = x1 (ix2 (0 : Fin 1) j)
  · rw [if_pos h, h]
    simp [IntOp.cmpi]
  · rw [if_neg h]
    have hb : (BitVec.ofNat 32 s.val == x1 (ix2 (0 : Fin 1) j)) = false := by simpa using h
    simp [IntOp.cmpi, hb]

/-- The table contracted with the one-hot block: each pixel's row of the table. -/
def gath (x1 : Vec Ideal S1x2048 .i32) (M : Vec Ideal S1024x32 .f32) : FVec Ideal S32x2048 .f32 :=
  matmul dot_S1024x32_S1024x2048_S32x2048_0_0_1_1_n_n none (truncf .bf16 (shapeCast S1024x32 M shapeCasts_S1024x32_S1024x32) bitsLt_bf16_f32) (oneHot x1)
    (constant (F := Ideal) S32x2048 .f32 0x00000000#32)

/-- At (c, j) it is the sum over the segments of the table's entry times the one-hot entry. -/
theorem gath_apply (x1 : Vec Ideal S1x2048 .i32) (M : Vec Ideal S1024x32 .f32) (c : Fin 32) (j : Fin 2048) :
    gath x1 M (ix2 c j)
      = ∑ s : Fin 1024, M (ix2 s c) * (if BitVec.ofNat 32 s.val = x1 (ix2 (0 : Fin 1) j) then 1 else 0) := by
  unfold gath
  refine (Ideal.matmul_constant_zero_apply dot_S1024x32_S1024x2048_S32x2048_0_0_1_1_n_n none _ _ (ix2 c j)).trans ?_
  rw [← Equiv.sum_comp (contrEquiv1 dot_S1024x32_S1024x2048_S32x2048_0_0_1_1_n_n 1024 rfl rfl).symm]
  refine Finset.sum_congr rfl fun s _ => ?_
  have hl : dot_S1024x32_S1024x2048_S32x2048_0_0_1_1_n_n.lhsIdx (ix2 c j) ((contrEquiv1 dot_S1024x32_S1024x2048_S32x2048_0_0_1_1_n_n 1024 rfl rfl).symm s) = ix2 s c :=
    funext fun a => Fin.ext (by
      match a with
      | ⟨0, _⟩ => exact (lhs_seg _ _).trans (contrEquiv1_symm_val _ 1024 rfl rfl s)
      | ⟨1, _⟩ => exact lhs_chan _ _)
  have hr : dot_S1024x32_S1024x2048_S32x2048_0_0_1_1_n_n.rhsIdx (ix2 c j) ((contrEquiv1 dot_S1024x32_S1024x2048_S32x2048_0_0_1_1_n_n 1024 rfl rfl).symm s) = ix2 s j :=
    funext fun a => Fin.ext (by
      match a with
      | ⟨0, _⟩ => exact (rhs_seg _ _).trans (contrEquiv1_symm_val _ 1024 rfl rfl s)
      | ⟨1, _⟩ => exact rhs_pix _ _)
  rw [hl, hr, truncf_apply, shapeCast_self, oneHot_apply]

/-- A [32, 2048] block summed over its channels and given a leading unit axis reads, at (0, j), the sum over the
    channels of column j. -/
theorem chanSum_apply (v : FVec Ideal S32x2048 .f32) (j : Fin 2048) :
    shapeCast S1x2048 (multiReduction .add [0] S2048 v 0x00000000#32 reduces_S32x2048_S2048 (.inl rfl) rfl)
        shapeCasts_S2048_S1x2048 (ix2 (0 : Fin 1) j)
      = ∑ c : Fin 32, v (ix2 c j) := by
  refine (shapeCast_a_1a_apply _ _ 0 j).trans ?_
  refine (Ideal.multiReduction_add_single v _ reduces_S32x2048_S2048 (.inl rfl) rfl (ix1 j)).trans ?_
  refine Finset.sum_congr rfl fun c _ => congrArg v ?_
  funext a
  apply Fin.ext
  match a with
  | ⟨0, _⟩ => rfl
  | ⟨1, _⟩ => rfl

/-- A [1, 2048] row summed over its pixels reads, at its one index, the sum over the pixels. -/
theorem laneSum_apply (v : FVec Ideal S1x2048 .f32) :
    multiReduction .add [1] S1 v 0x00000000#32 reduces_S1x2048_S1 (.inl rfl) rfl (ix1 (0 : Fin 1))
      = ∑ j : Fin 2048, v (ix2 (0 : Fin 1) j) := by
  refine (Ideal.multiReduction_add_single v _ reduces_S1x2048_S1 (.inl rfl) rfl (ix1 (0 : Fin 1))).trans ?_
  refine Finset.sum_congr rfl fun j _ => congrArg v ?_
  funext a
  apply Fin.ext
  match a with
  | ⟨0, _⟩ => rfl
  | ⟨1, _⟩ => rfl

/-- The tile's intra terms: at pixel j, the cosine (norms clamped, over the temperature) of the pixel's embedding with
    its row of the table. The products, the two maxima and the two divisions stand in the order the cosine is written in. -/
theorem pay5_apply (x0 : Vec Ideal S32x2048 .f32) (x1 : Vec Ideal S1x2048 .i32) (M : Vec Ideal S1024x32 .f32)
    (j : Fin 2048) :
    k1_pay5 x0 x1 M (ix2 (0 : Fin 1) j) = cosT (fun c => x0 (ix2 c j)) (fun c => gath x1 M (ix2 c j)) := by
  unfold cosT
  show Ideal.div (Ideal.div
      (shapeCast S1x2048 (multiReduction (F := Ideal) .add [0] S2048
          (mulf (F := Ideal) (φ := .f32) (shapeCast S32x2048 x0 shapeCasts_S32x2048_S32x2048) (gath x1 M))
          0x00000000#32 reduces_S32x2048_S2048 (.inl rfl) rfl) shapeCasts_S2048_S1x2048 (ix2 (0 : Fin 1) j))
      (max (Ideal.sqrt (shapeCast S1x2048 (multiReduction (F := Ideal) .add [0] S2048
          (mulf (F := Ideal) (φ := .f32) (shapeCast S32x2048 x0 shapeCasts_S32x2048_S32x2048) (shapeCast S32x2048 x0 shapeCasts_S32x2048_S32x2048))
          0x00000000#32 reduces_S32x2048_S2048 (.inl rfl) rfl) shapeCasts_S2048_S1x2048 (ix2 (0 : Fin 1) j))) eps
        * max (Ideal.sqrt (shapeCast S1x2048 (multiReduction (F := Ideal) .add [0] S2048
          (mulf (gath x1 M) (gath x1 M))
          0x00000000#32 reduces_S32x2048_S2048 (.inl rfl) rfl) shapeCasts_S2048_S1x2048 (ix2 (0 : Fin 1) j))) eps)) half = _
  rw [chanSum_apply, chanSum_apply, chanSum_apply, shapeCast_self]
  rfl

/-- The zero block the first point stores reads 0. -/
theorem pay3_apply (i : S1x1.Idx) : k1_pay3 (F := Ideal) i = 0 := Ideal.ofBits_zero_f32
theorem pay4_apply (i : S1x1.Idx) : k1_pay4 (F := Ideal) i = 0 := Ideal.ofBits_zero_f32

/-- The first result block after the body: its old value plus the sum over the tile's pixels of the exponential of the
    intra term. -/
theorem pay1_apply (x0 : Vec Ideal S32x2048 .f32) (x1 : Vec Ideal S1x2048 .i32) (M : Vec Ideal S1024x32 .f32)
    (acc : Vec Ideal S1x1 .f32) :
    k1_pay1 (k1_pay6 acc) (k1_pay7 x0 x1 M) (ix2 (0 : Fin 1) (0 : Fin 1))
      = acc (ix2 (0 : Fin 1) (0 : Fin 1)) + ∑ j : Fin 2048, Ideal.exp (k1_pay5 x0 x1 M (ix2 (0 : Fin 1) j)) := by
  show shapeCast S1x1 acc shapeCasts_S1x1_S1x1 (ix2 (0 : Fin 1) (0 : Fin 1))
      + shapeCast S1x1 (multiReduction (F := Ideal) .add [1] S1 (exp (k1_pay5 x0 x1 M)) 0x00000000#32 reduces_S1x2048_S1 (.inl rfl) rfl)
          shapeCasts_S1_S1x1 (ix2 (0 : Fin 1) (0 : Fin 1)) = _
  rw [shapeCast_self, shapeCast_a_1a_apply, laneSum_apply]
  rfl

/-- The second result block after the body: its old value plus the sum over the tile's pixels of the intra term. -/
theorem pay2_apply (x0 : Vec Ideal S32x2048 .f32) (x1 : Vec Ideal S1x2048 .i32) (M : Vec Ideal S1024x32 .f32)
    (acc : Vec Ideal S1x1 .f32) :
    k1_pay2 (k1_pay5 x0 x1 M) acc (ix2 (0 : Fin 1) (0 : Fin 1))
      = acc (ix2 (0 : Fin 1) (0 : Fin 1)) + ∑ j : Fin 2048, k1_pay5 x0 x1 M (ix2 (0 : Fin 1) j) := by
  show shapeCast S1x1 acc shapeCasts_S1x1_S1x1 (ix2 (0 : Fin 1) (0 : Fin 1))
      + shapeCast S1x1 (multiReduction (F := Ideal) .add [1] S1 (k1_pay5 x0 x1 M) 0x00000000#32 reduces_S1x2048_S1 (.inl rfl) rfl)
          shapeCasts_S1_S1x1 (ix2 (0 : Fin 1) (0 : Fin 1)) = _
  rw [shapeCast_self, shapeCast_a_1a_apply, laneSum_apply]

end Payload

/-! ## The windows' blocks read off the arrays

The embeddings' and the ids' windows step along the pixel axis, one tile of 2048 pixels per point; the table's window
is the whole table at every point. -/

section Blocks
open Idealize.ShloMosaic.ValueIdx

/-- Where each window's block sits at point t (block index per axis), decided once over the 512 points. -/
theorem idx_facts : ∀ t : Fin cfg1.N,
    win1_0.index t 0 = 0 ∧ win1_0.index t 1 = t.val ∧ win1_1.index t 0 = 0 ∧ win1_1.index t 1 = t.val
    ∧ win1_2.index t 0 = 0 ∧ win1_2.index t 1 = 0 ∧ win1_3.index t 0 = 0 ∧ win1_3.index t 1 = 0
    ∧ win1_4.index t 0 = 0 ∧ win1_4.index t 1 = 0 :=
  (by decide +kernel : ∀ t : Fin grid1.N,
    win1_0.index t 0 = 0 ∧ win1_0.index t 1 = t.val ∧ win1_1.index t 0 = 0 ∧ win1_1.index t 1 = t.val
    ∧ win1_2.index t 0 = 0 ∧ win1_2.index t 1 = 0 ∧ win1_3.index t 0 = 0 ∧ win1_3.index t 1 = 0
    ∧ win1_4.index t 0 = 0 ∧ win1_4.index t 1 = 0)

/-- The arrays the region is entered with: embeddings, ids, table of means. -/
abbrev xE (c : Dev nD) : Vec Ideal S32x1048576 .f32 := V c main_v0
abbrev xK (c : Dev nD) : Vec Ideal S1x1048576 .i32 := V c main_v1
abbrev xM (c : Dev nD) : Vec Ideal S1024x32 .f32 := V c main_v6
/-- Their blocks at point t. -/
abbrev blkE (c : Dev nD) (t : Fin cfg1.N) : Vec Ideal S32x2048 .f32 := iblk1 V c 0 t
abbrev blkK (c : Dev nD) (t : Fin cfg1.N) : Vec Ideal S1x2048 .i32 := iblk1 V c 1 t
abbrev blkM (c : Dev nD) (t : Fin cfg1.N) : Vec Ideal S1024x32 .f32 := iblk1 V c 2 t

/-- The embeddings' block at point t reads, at (channel, j), the array at (channel, 2048 t + j). -/
theorem blkE_apply (c : Dev nD) (t : Fin cfg1.N) (ch : Fin 32) (j : Fin 2048) (n : Fin 1048576)
    (hn : n.val = t.val * 2048 + j.val) : blkE V c t (ix2 ch j) = xE V c (ix2 ch n) := by
  show ((cfg1.win 0).blk t).view.read (Elt Ideal) (V c (Pipeline.arrRef spec1 0)) (ix2 ch j) = _
  rw [View.read_apply]
  show V c main_v0 _ = V c main_v0 _
  congr 1
  funext a
  apply Fin.ext
  match a with
  | ⟨0, _⟩ => show win1_0.index t 0 * 32 + 1 * ch.val = ch.val; rw [(idx_facts t).1]; omega
  | ⟨1, _⟩ => show win1_0.index t 1 * 2048 + 1 * j.val = n.val; rw [(idx_facts t).2.1, hn]; omega

/-- The ids' block at point t reads, at (0, j), the ids' row at 2048 t + j. -/
theorem blkK_apply (c : Dev nD) (t : Fin cfg1.N) (j : Fin 2048) (n : Fin 1048576)
    (hn : n.val = t.val * 2048 + j.val) : blkK V c t (ix2 (0 : Fin 1) j) = xK V c (ix2 (0 : Fin 1) n) := by
  show ((cfg1.win 1).blk t).view.read (Elt Ideal) (V c (Pipeline.arrRef spec1 1)) (ix2 (0 : Fin 1) j) = _
  rw [View.read_apply]
  show V c main_v1 _ = V c main_v1 _
  congr 1
  funext a
  apply Fin.ext
  match a with
  | ⟨0, _⟩ => show win1_1.index t 0 * 1 + 1 * 0 = 0; rw [(idx_facts t).2.2.1]
  | ⟨1, _⟩ => show win1_1.index t 1 * 2048 + 1 * j.val = n.val; rw [(idx_facts t).2.2.2.1, hn]; omega

/-- The table's block is the table, at every point. -/
theorem blkM_eq (c : Dev nD) (t : Fin cfg1.N) : blkM V c t = xM V c := by
  have hz' : (fun a => win1_2.index t a * main_v6.ty.shape.size a) = fun _ => 0 :=
    funext fun a => by
      match a with
      | ⟨0, _⟩ => show win1_2.index t 0 * 1024 = 0; rw [(idx_facts t).2.2.2.2.1]
      | ⟨1, _⟩ => show win1_2.index t 1 * 32 = 0; rw [(idx_facts t).2.2.2.2.2.1]
  exact Memref.read_access_unit_zero (Elt Ideal) main_v6 hz' (fun a => by rw [congrFun hz' a]; simp) (V c main_v6)

end Blocks

/-! ## The running sums

After point t the first result block holds the sum, over the pixels below 2048 (t + 1), of the exponential of the intra
term, and the second the same sum of the intra terms: zero plus the first tile's sum at the first point, the old value
plus the tile's sum afterwards. The sums over pixels are written over the naturals, the summand extended by zero. -/

section Sums
open Idealize.ShloMosaic.ValueIdx

/-- A function of the pixel extended by zero to all naturals. -/
def ext0 (f : Fin 1048576 → EReal) (k : ℕ) : EReal := if h : k < 1048576 then f ⟨k, h⟩ else 0

/-- Its sum below the number of pixels is the sum over the pixels. -/
theorem sum_ext0 (f : Fin 1048576 → EReal) : ∑ k ∈ Finset.range 1048576, ext0 f k = ∑ n : Fin 1048576, f n := by
  rw [← Fin.sum_univ_eq_sum_range]
  exact Finset.sum_congr rfl fun n _ => dif_pos n.isLt

/-- A tile's 2048 values that are f at the pixels 2048 t + j sum to the stretch of the extended sum that starts at 2048 t. -/
theorem tile_sum (f : Fin 1048576 → EReal) (t : ℕ) (ht : t < 512) (g : Fin 2048 → EReal)
    (hg : ∀ (j : Fin 2048) (n : Fin 1048576), n.val = t * 2048 + j.val → g j = f n) :
    ∑ j : Fin 2048, g j = ∑ k ∈ Finset.range 2048, ext0 f (t * 2048 + k) := by
  rw [← Fin.sum_univ_eq_sum_range (fun k => ext0 f (t * 2048 + k)) 2048]
  refine Finset.sum_congr rfl fun j _ => ?_
  have hj : t * 2048 + j.val < 1048576 := by have := j.isLt; omega
  show g j = ext0 f (t * 2048 + j.val)
  rw [hg j ⟨_, hj⟩ rfl]
  unfold ext0
  rw [dif_pos hj]

/-- On a tile whose embeddings and ids are the arrays' at the pixels 2048 t + j, the body's intra term at j is the
    intra term of pixel 2048 t + j: the gathered row is the one-hot contraction that picks the pixel's segment's row. -/
theorem tile_vals (X : Vec Ideal S32x1048576 .f32) (K : Vec Ideal S1x1048576 .i32) (M : Vec Ideal S1024x32 .f32)
    (t : ℕ) (x0 : Vec Ideal S32x2048 .f32) (x1 : Vec Ideal S1x2048 .i32)
    (h0 : ∀ (ch : Fin 32) (j : Fin 2048) (n : Fin 1048576), n.val = t * 2048 + j.val → x0 (ix2 ch j) = X (ix2 ch n))
    (h1 : ∀ (j : Fin 2048) (n : Fin 1048576), n.val = t * 2048 + j.val → x1 (ix2 (0 : Fin 1) j) = K (ix2 (0 : Fin 1) n))
    (j : Fin 2048) (n : Fin 1048576) (hn : n.val = t * 2048 + j.val) :
    k1_pay5 x0 x1 M (ix2 (0 : Fin 1) j) = intraAt X (segK K) M n := by
  rw [pay5_apply]
  unfold intraAt
  congr 1
  · funext ch
    exact h0 ch j n hn
  · funext ch
    rw [gath_apply]
    unfold pick hot segK
    rw [h1 j n hn]

/-- So the tile's sum of exponentials is a stretch of the pixels' sum of exponentials, -/
theorem tile_exp (X : Vec Ideal S32x1048576 .f32) (K : Vec Ideal S1x1048576 .i32) (M : Vec Ideal S1024x32 .f32)
    (t : ℕ) (ht : t < 512) (x0 : Vec Ideal S32x2048 .f32) (x1 : Vec Ideal S1x2048 .i32)
    (h0 : ∀ (ch : Fin 32) (j : Fin 2048) (n : Fin 1048576), n.val = t * 2048 + j.val → x0 (ix2 ch j) = X (ix2 ch n))
    (h1 : ∀ (j : Fin 2048) (n : Fin 1048576), n.val = t * 2048 + j.val → x1 (ix2 (0 : Fin 1) j) = K (ix2 (0 : Fin 1) n)) :
    ∑ j : Fin 2048, Ideal.exp (k1_pay5 x0 x1 M (ix2 (0 : Fin 1) j))
      = ∑ k ∈ Finset.range 2048, ext0 (fun p => Ideal.exp (intraAt X (segK K) M p)) (t * 2048 + k) :=
  tile_sum _ t ht _ fun j n hn => congrArg Ideal.exp (tile_vals X K M t x0 x1 h0 h1 j n hn)

/-- and the tile's sum of intra terms a stretch of the pixels' sum of intra terms. -/
theorem tile_intra (X : Vec Ideal S32x1048576 .f32) (K : Vec Ideal S1x1048576 .i32) (M : Vec Ideal S1024x32 .f32)
    (t : ℕ) (ht : t < 512) (x0 : Vec Ideal S32x2048 .f32) (x1 : Vec Ideal S1x2048 .i32)
    (h0 : ∀ (ch : Fin 32) (j : Fin 2048) (n : Fin 1048576), n.val = t * 2048 + j.val → x0 (ix2 ch j) = X (ix2 ch n))
    (h1 : ∀ (j : Fin 2048) (n : Fin 1048576), n.val = t * 2048 + j.val → x1 (ix2 (0 : Fin 1) j) = K (ix2 (0 : Fin 1) n)) :
    ∑ j : Fin 2048, k1_pay5 x0 x1 M (ix2 (0 : Fin 1) j)
      = ∑ k ∈ Finset.range 2048, ext0 (fun p => intraAt X (segK K) M p) (t * 2048 + k) :=
  tile_sum _ t ht _ fun j n hn => tile_vals X K M t x0 x1 h0 h1 j n hn

/-- THE INVARIANT: what the two result blocks hold after point n. -/
theorem outsAt_eq (c : Dev nD) : ∀ (n : ℕ) (h : n < cfg1.N),
    (outsAt1 V c n h).1 (ix2 (0 : Fin 1) (0 : Fin 1))
        = ∑ k ∈ Finset.range ((n + 1) * 2048), ext0 (fun p => Ideal.exp (intraAt (xE V c) (segK (xK V c)) (xM V c) p)) k
    ∧ (outsAt1 V c n h).2 (ix2 (0 : Fin 1) (0 : Fin 1))
        = ∑ k ∈ Finset.range ((n + 1) * 2048), ext0 (fun p => intraAt (xE V c) (segK (xK V c)) (xM V c) p) k
  | 0, h => by
    rw [outsAt1_A V c ⟨0, h⟩ rfl]
    dsimp only
    constructor
    · refine (congrFun (out_A_3 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (blkE V c ⟨0, h⟩) (blkK V c ⟨0, h⟩) (blkM V c ⟨0, h⟩))
        (ix2 (0 : Fin 1) (0 : Fin 1))).trans ?_
      rw [pay1_apply, pay3_apply, zero_add, blkM_eq, tile_exp (xE V c) (xK V c) (xM V c) 0 (by omega) (blkE V c ⟨0, h⟩) (blkK V c ⟨0, h⟩)
        (fun ch j p hp => blkE_apply V c ⟨0, h⟩ ch j p hp) (fun j p hp => blkK_apply V c ⟨0, h⟩ j p hp)]
      simp only [Nat.zero_mul, Nat.zero_add, Nat.one_mul]
    · refine (congrFun (out_A_4 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (blkE V c ⟨0, h⟩) (blkK V c ⟨0, h⟩) (blkM V c ⟨0, h⟩))
        (ix2 (0 : Fin 1) (0 : Fin 1))).trans ?_
      rw [pay2_apply, pay4_apply, zero_add, blkM_eq, tile_intra (xE V c) (xK V c) (xM V c) 0 (by omega) (blkE V c ⟨0, h⟩) (blkK V c ⟨0, h⟩)
        (fun ch j p hp => blkE_apply V c ⟨0, h⟩ ch j p hp) (fun j p hp => blkK_apply V c ⟨0, h⟩ j p hp)]
      simp only [Nat.zero_mul, Nat.zero_add, Nat.one_mul]
  | n + 1, h => by
    have hN : cfg1.N = 512 := N_1
    have hB : ¬(⟨n + 1, h⟩ : Fin cfg1.N).val % 512 = 0 := by dsimp only; omega
    obtain ⟨ih3, ih4⟩ := outsAt_eq c n (Nat.lt_of_succ_lt h)
    rw [outsAt1_B V c ⟨n + 1, h⟩ hB]
    dsimp only
    constructor
    · refine (congrFun (out_B_3 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (blkE V c ⟨n + 1, h⟩) (blkK V c ⟨n + 1, h⟩) (blkM V c ⟨n + 1, h⟩)
        (outsAt1 V c n (Nat.lt_of_succ_lt h)).1 (outsAt1 V c n (Nat.lt_of_succ_lt h)).2) (ix2 (0 : Fin 1) (0 : Fin 1))).trans ?_
      rw [pay1_apply, ih3, blkM_eq, tile_exp (xE V c) (xK V c) (xM V c) (n + 1) (by omega) (blkE V c ⟨n + 1, h⟩) (blkK V c ⟨n + 1, h⟩)
        (fun ch j p hp => blkE_apply V c ⟨n + 1, h⟩ ch j p hp) (fun j p hp => blkK_apply V c ⟨n + 1, h⟩ j p hp),
        show (n + 1 + 1) * 2048 = (n + 1) * 2048 + 2048 by omega, Finset.sum_range_add]
    · refine (congrFun (out_B_4 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (blkE V c ⟨n + 1, h⟩) (blkK V c ⟨n + 1, h⟩) (blkM V c ⟨n + 1, h⟩)
        (outsAt1 V c n (Nat.lt_of_succ_lt h)).1 (outsAt1 V c n (Nat.lt_of_succ_lt h)).2) (ix2 (0 : Fin 1) (0 : Fin 1))).trans ?_
      rw [pay2_apply, ih4, blkM_eq, tile_intra (xE V c) (xK V c) (xM V c) (n + 1) (by omega) (blkE V c ⟨n + 1, h⟩) (blkK V c ⟨n + 1, h⟩)
        (fun ch j p hp => blkE_apply V c ⟨n + 1, h⟩ ch j p hp) (fun j p hp => blkK_apply V c ⟨n + 1, h⟩ j p hp),
        show (n + 1 + 1) * 2048 = (n + 1) * 2048 + 2048 by omega, Finset.sum_range_add]

end Sums

/-! ## The result arrays

Each result array is one block, written back once, after the last point: it ends holding the running sum over all the
pixels. -/

section Result
open Idealize.ShloMosaic.ValueIdx

/-- A [1, 1] array has one index. -/
theorem idx11 (i : S1x1.Idx) : i = ix2 (0 : Fin 1) (0 : Fin 1) := by
  funext a
  apply Fin.ext
  match a with
  | ⟨0, _⟩ => have := idx2_lt0 i; show (i 0).val = 0; omega
  | ⟨1, _⟩ => have := idx2_lt1 i; show (i 1).val = 0; omega

/-- The last point. -/
abbrev tLast : Fin cfg1.N := ⟨511, by rw [show cfg1.N = 512 from N_1]; decide⟩

/-- The one write-back of the first result, after the last point, writes the sum over all the pixels of the exponentials: the block is the whole [1, 1] array, read through zero offsets. -/
theorem flushed3_eq (c : Dev nD) (t : Fin cfg1.N) (hf : (cfg1.win 3).flush t = true) :
    (dat1 V c).flushed 3 t
      = ((cfg1.win 3).blk t).view.read (Elt Ideal) (fun _ => sumExp (xE V c) (segK (xK V c)) (xM V c)) := by
  have hN : cfg1.N = 512 := N_1
  have h511 : t.val = 511 := by have := (flush1_3 t).mp hf; have := t.isLt; omega
  have hlast : (outsAt1 V c t.val t.isLt).1 = fun _ => sumExp (xE V c) (segK (xK V c)) (xM V c) := by
    funext i
    have e := (outsAt_eq V c t.val t.isLt).1
    rw [idx11 i, e, h511, show (511 + 1) * 2048 = 1048576 from rfl]
    exact sum_ext0 _
  show (cfg1.win 3).cut (grid1.coords t) ((dat1 V c).after 3 t) = _
  rw [after1_3, hlast]
  have hz' : (fun a => win1_3.index t a * main_v7_0.ty.shape.size a) = fun _ => 0 :=
    funext fun a => by
      match a with
      | ⟨0, _⟩ => show win1_3.index t 0 * 1 = 0; rw [(idx_facts t).2.2.2.2.2.2.1]
      | ⟨1, _⟩ => show win1_3.index t 1 * 1 = 0; rw [(idx_facts t).2.2.2.2.2.2.2.1]
  exact (Memref.read_access_unit_zero (Elt Ideal) main_v7_0 hz' (fun a => by rw [congrFun hz' a]; simp)
    (fun _ => sumExp (xE V c) (segK (xK V c)) (xM V c))).symm

/-- The one write-back of the second result likewise writes the sum over all the pixels of the intra terms. -/
theorem flushed4_eq (c : Dev nD) (t : Fin cfg1.N) (hf : (cfg1.win 4).flush t = true) :
    (dat1 V c).flushed 4 t
      = ((cfg1.win 4).blk t).view.read (Elt Ideal) (fun _ => sumIntra (xE V c) (segK (xK V c)) (xM V c)) := by
  have hN : cfg1.N = 512 := N_1
  have h511 : t.val = 511 := by have := (flush1_4 t).mp hf; have := t.isLt; omega
  have hlast : (outsAt1 V c t.val t.isLt).2 = fun _ => sumIntra (xE V c) (segK (xK V c)) (xM V c) := by
    funext i
    have e := (outsAt_eq V c t.val t.isLt).2
    rw [idx11 i, e, h511, show (511 + 1) * 2048 = 1048576 from rfl]
    exact sum_ext0 _
  show (cfg1.win 4).cut (grid1.coords t) ((dat1 V c).after 4 t) = _
  rw [after1_4, hlast]
  have hz' : (fun a => win1_4.index t a * main_v7_1.ty.shape.size a) = fun _ => 0 :=
    funext fun a => by
      match a with
      | ⟨0, _⟩ => show win1_4.index t 0 * 1 = 0; rw [(idx_facts t).2.2.2.2.2.2.2.2.1]
      | ⟨1, _⟩ => show win1_4.index t 1 * 1 = 0; rw [(idx_facts t).2.2.2.2.2.2.2.2.2]
  exact (Memref.read_access_unit_zero (Elt Ideal) main_v7_1 hz' (fun a => by rw [congrFun hz' a]; simp)
    (fun _ => sumIntra (xE V c) (segK (xK V c)) (xM V c))).symm

end Result

/-- Region 1 leaves, in its first result array, the sum over the pixels of exp(intra term), of the embeddings, ids and
    table of means it was entered with. -/
theorem sumExp_final (c : Dev nD) :
    (dat1 (F := Ideal) V c).arrAt 3 cfg1.N = fun _ => sumExp (V c main_v0) (segK (V c main_v1)) (V c main_v6) :=
  (dat1 V c).arrAt_eq_of_cover 3 (fun _ => sumExp (xE V c) (segK (xK V c)) (xM V c)) (flushed3_eq V c) fun i =>
    ⟨tLast, (flush1_3 tLast).mpr rfl, by
      show i ∈ ((View.whole main_v7_0).slice (win1_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index tLast 0 * win1_3.size 0 ≤ (i 0 : Nat)
          ∧ (i 0 : Nat) < win1_3.index tLast 0 * win1_3.size 0 + win1_3.xsize (grid1.coords tLast) 0
        rw [show win1_3.index tLast 0 * win1_3.size 0 = 0 from by decide +kernel,
          show win1_3.xsize (grid1.coords tLast) 0 = 1 from by decide +kernel]
        omega
      | ⟨1, _⟩ =>
        show win1_3.index tLast 1 * win1_3.size 1 ≤ (i 1 : Nat)
          ∧ (i 1 : Nat) < win1_3.index tLast 1 * win1_3.size 1 + win1_3.xsize (grid1.coords tLast) 1
        rw [show win1_3.index tLast 1 * win1_3.size 1 = 0 from by decide +kernel,
          show win1_3.xsize (grid1.coords tLast) 1 = 1 from by decide +kernel]
        omega⟩

/-- and in its second the sum of the intra terms. -/
theorem sumIntra_final (c : Dev nD) :
    (dat1 (F := Ideal) V c).arrAt 4 cfg1.N = fun _ => sumIntra (V c main_v0) (segK (V c main_v1)) (V c main_v6) :=
  (dat1 V c).arrAt_eq_of_cover 4 (fun _ => sumIntra (xE V c) (segK (xK V c)) (xM V c)) (flushed4_eq V c) fun i =>
    ⟨tLast, (flush1_4 tLast).mpr rfl, by
      show i ∈ ((View.whole main_v7_1).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index tLast 0 * win1_4.size 0 ≤ (i 0 : Nat)
          ∧ (i 0 : Nat) < win1_4.index tLast 0 * win1_4.size 0 + win1_4.xsize (grid1.coords tLast) 0
        rw [show win1_4.index tLast 0 * win1_4.size 0 = 0 from by decide +kernel,
          show win1_4.xsize (grid1.coords tLast) 0 = 1 from by decide +kernel]
        omega
      | ⟨1, _⟩ =>
        show win1_4.index tLast 1 * win1_4.size 1 ≤ (i 1 : Nat)
          ∧ (i 1 : Nat) < win1_4.index tLast 1 * win1_4.size 1 + win1_4.xsize (grid1.coords tLast) 1
        rw [show win1_4.index tLast 1 * win1_4.size 1 = 0 from by decide +kernel,
          show win1_4.xsize (grid1.coords tLast) 1 = 1 from by decide +kernel]
        omega⟩

end Cert.KernelIdeal.Reg1

end
-- ==== Proof.Final.lean ====
/-
  The loss as ONE function of the three arguments: log(∑ₙ exp(intraₙ) + inter) − (∑ₙ intraₙ) / N, with the intra terms
  taken against the table of segment means of the arguments and the inter term the shared host chain of that table
  and the edges.  Both programs are shown to end at this value.
-/
import proofs.«400441_j2886218023667_1_alg».proof.Proof.Spec
import proofs.«400441_j2886218023667_1_alg».proof.Proof.Inter

noncomputable section

open Idealize.ShloMosaic

namespace Cert.SegLoss

/-- The loss of the arguments. -/
def lossFinal (x0 : SA0.Idx → EReal) (x1 : SA1.Idx → BitVec 32) (x2 : IVec Cert.KernelIdeal.S2x8192 32) : EReal :=
  lossOf (sumExp (embOf x0) (segOf x1) (meansOf x0 x1)) (sumIntra (embOf x0) (segOf x1) (meansOf x0 x1))
    (Cert.KernelIdeal.Tail.inter (F := Ideal) (meansOf x0 x1) x2 ValueIdx.ix0)

end Cert.SegLoss

end
-- ==== Proof.KernelRun.lean ====
/-
  The kernel's run, read: its result is the loss of the arguments.

  The buffer contents at each boundary of @main are followed from the launch: the two flattening reshapes give the
  embeddings [32, N] and the row of ids; the first region leaves the per-segment sums and counts of those; the host
  divides them into the table of means; the second region, entered with the same embeddings and ids (no region and no
  host operation in between writes them) and that table, leaves the two sums over the pixels; the last host lines make
  log(sum_exp + inter) − sum_intra / N of them.
-/
import proofs.«400441_j2886218023667_1_alg».proof.Proof.Gen.KernelIdeal.Frame
import proofs.«400441_j2886218023667_1_alg».proof.Proof.KernelLaunch
import proofs.«400441_j2886218023667_1_alg».proof.Proof.KernelHost
import proofs.«400441_j2886218023667_1_alg».proof.Proof.Region0
import proofs.«400441_j2886218023667_1_alg».proof.Proof.Region1
import proofs.«400441_j2886218023667_1_alg».proof.Proof.Final
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.RunValue

open Cert.KernelIdeal Cert.KernelIdeal.Gen Cert.SegLoss Cert.KernelIdeal.HostSteps

/-! ## The host lines as the specification's functions -/

/-- Flattening [1, 32, 1024, 1024] to [32, N] keeps the channel and puts pixel (row, column) at row · 1024 + column. -/
theorem cast_emb (x0 : SA0.Idx → EReal) (h : SA0.ShapeCasts SE) : shapeCast SE x0 h = embOf x0 := by
  funext i
  unfold embOf
  refine shapeCast_apply x0 h i _ ?_
  rewrite [Shape.rowMajor_val_four, Shape.rowMajor_val_two]
  have h0 : (i 0).val < 32 := (i 0).isLt
  have h1 : (i 1).val < 1048576 := (i 1).isLt
  show ((0 * 32 + (i 0).val) * 1024 + (i 1).val / 1024) * 1024 + (i 1).val % 1024 = (i 0).val * 1048576 + (i 1).val
  omega

/-- Flattening the ids [1, 1, 1024, 1024] to a row [1, N] likewise. -/
theorem cast_seg (x1 : SA1.Idx → BitVec 32) (h : SA1.ShapeCasts SK) : segK (shapeCast SK x1 h) = segOf x1 := by
  funext n
  unfold segK segOf
  refine shapeCast_apply x1 h (ix2 (0 : Fin 1) n) _ ?_
  rewrite [Shape.rowMajor_val_four, Shape.rowMajor_val_two]
  have h1 : n.val < 1048576 := n.isLt
  show ((0 * 1 + 0) * 1024 + n.val / 1024) * 1024 + n.val % 1024 = 0 * 1048576 + n.val
  omega

/-- The host's quotient by the clamped counts, their column laid along the channels, is the table of means. -/
theorem meansOp_eq (A : SM.Idx → EReal) (C : SC.Idx → EReal) : meansOp (F := Ideal) A C = meansArr A C := by
  funext i
  show Ideal.div (A i) _ = Ideal.div (A i) _
  congr 1
  refine (broadcastInDim_apply _ bcast_S1024x1_S1024x32_0_1 _ i (ix2 (i 0) (0 : Fin 1)) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])).trans ?_
  show max (C (ix2 (i 0) (0 : Fin 1))) _ = max (C (ix2 (i 0) (0 : Fin 1))) oneW
  congr 1

/-- The last host lines on two constant [1,1] arrays. -/
theorem lossOp_eq (se si : EReal) (M : FVec Ideal S1024x32 .f32) (e : IVec S2x8192 32) :
    lossOp (F := Ideal) (fun _ => se) (fun _ => si) M e = fun _ => lossOf se si (Tail.inter (F := Ideal) M e ix0) := by
  funext j
  have hj := eq_ix0 j
  subst hj
  rfl

/-! ## The boundaries -/

variable (m : (ℓ : Loc nD τ sig) → Buf (Elt Ideal) ℓ) (ρ : Dev nD → PrngReg)

/-- Entering the first region: the flattened embeddings and ids. -/
theorem V1_emb (c : Dev nD) : V1 m ρ c main_v0 = embOf (m ((c : Thread nD τ).loc main_arg0)) :=
  (pre_v0 (W0 m ρ c)).trans (cast_emb _ _)

theorem V1_seg (c : Dev nD) : segK (V1 m ρ c main_v1) = segOf (m ((c : Thread nD τ).loc main_arg1)) :=
  (congrArg segK (pre_v1 (W0 m ρ c))).trans (cast_seg _ _)

/-- Leaving it: the sums and the counts. -/
theorem W2_sums (c : Dev nD) : W2 m ρ c (Proc.devRef .tc main_v2_0)
    = sumsArr (embOf (m ((c : Thread nD τ).loc main_arg0))) (segOf (m ((c : Thread nD τ).loc main_arg1))) :=
  (W2_arr m ρ c 2).trans ((Reg0.sums_final (V1 m ρ) c).trans (congrArg₂ sumsArr (V1_emb m ρ c) (V1_seg m ρ c)))

theorem W2_cnts (c : Dev nD) : W2 m ρ c (Proc.devRef .tc main_v2_1)
    = cntsArr (segOf (m ((c : Thread nD τ).loc main_arg1))) :=
  (W2_arr m ρ c 3).trans ((Reg0.cnts_final (V1 m ρ) c).trans (congrArg cntsArr (V1_seg m ρ c)))

/-- The first region leaves its inputs as it found them. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

theorem W2_v1 (c : Dev nD) : W2 m ρ c (Proc.devRef .tc main_v1) = V1 m ρ c main_v1 :=
  (W2_arr m ρ c 1).trans (((dat0 (V1 m ρ) c).arrAt_in 1 rfl _).trans (A_eq0 (V1 m ρ) c 1))

/-- Entering the second region: the same embeddings and ids, and the table of means. -/
theorem V3_emb (c : Dev nD) : V3 m ρ c main_v0 = embOf (m ((c : Thread nD τ).loc main_arg0)) :=
  (mid_v0 (W2 m ρ c)).trans ((W2_v0 m ρ c).trans (V1_emb m ρ c))

theorem V3_seg (c : Dev nD) : segK (V3 m ρ c main_v1) = segOf (m ((c : Thread nD τ).loc main_arg1)) :=
  (congrArg segK ((mid_v1 (W2 m ρ c)).trans (W2_v1 m ρ c))).trans (V1_seg m ρ c)

theorem V3_means (c : Dev nD) : V3 m ρ c main_v6
    = meansOf (m ((c : Thread nD τ).loc main_arg0)) (m ((c : Thread nD τ).loc main_arg1)) :=
  (mid_v6 (W2 m ρ c)).trans ((congrArg₂ (meansOp (F := Ideal)) (W2_sums m ρ c) (W2_cnts m ρ c)).trans (meansOp_eq _ _))

/-- Leaving it: the two sums over the pixels, the table and the edges untouched. -/
theorem W4_sumExp (c : Dev nD) : W4 m ρ c (Proc.devRef .tc main_v7_0)
    = fun _ => sumExp (embOf (m ((c : Thread nD τ).loc main_arg0))) (segOf (m ((c : Thread nD τ).loc main_arg1)))
        (meansOf (m ((c : Thread nD τ).loc main_arg0)) (m ((c : Thread nD τ).loc main_arg1))) :=
  (W4_arr m ρ c 3).trans ((Reg1.sumExp_final (V3 m ρ) c).trans
    (by rw [V3_emb m ρ c, V3_seg m ρ c, V3_means m ρ c]))

theorem W4_sumIntra (c : Dev nD) : W4 m ρ c (Proc.devRef .tc main_v7_1)
    = fun _ => sumIntra (embOf (m ((c : Thread nD τ).loc main_arg0))) (segOf (m ((c : Thread nD τ).loc main_arg1)))
        (meansOf (m ((c : Thread nD τ).loc main_arg0)) (m ((c : Thread nD τ).loc main_arg1))) :=
  (W4_arr m ρ c 4).trans ((Reg1.sumIntra_final (V3 m ρ) c).trans
    (by rw [V3_emb m ρ c, V3_seg m ρ c, V3_means m ρ c]))

theorem W4_means (c : Dev nD) : W4 m ρ c (Proc.devRef .tc main_v6)
    = meansOf (m ((c : Thread nD τ).loc main_arg0)) (m ((c : Thread nD τ).loc main_arg1)) :=
  (W4_arr m ρ c 2).trans (((dat1 (V3 m ρ) c).arrAt_in 2 rfl _).trans ((A_eq1 (V3 m ρ) c 2).trans (V3_means m ρ c)))

theorem W4_edges (c : Dev nD) : W4 m ρ c (Proc.devRef .tc main_arg2) = m ((c : Thread nD τ).loc main_arg2) :=
  (W4_of_ne m ρ c main_arg2 (by decide)).trans ((mid_arg2 (W2 m ρ c)).trans
    ((W2_of_ne m ρ c main_arg2 (by decide)).trans (pre_arg2 (W0 m ρ c))))

/-- The result buffer at the last boundary. -/
theorem W9_result (c : Dev nD) : W9 m ρ c (Proc.devRef .tc main_v45)
    = fun _ => lossFinal (m ((c : Thread nD τ).loc main_arg0)) (m ((c : Thread nD τ).loc main_arg1))
        (m ((c : Thread nD τ).loc main_arg2)) := by
  refine (post_v45 (W4 m ρ c)).trans ?_
  rw [W4_sumExp m ρ c, W4_sumIntra m ρ c, W4_means m ρ c, W4_edges m ρ c]
  exact lossOp_eq _ _ _ _

/-- Every weakly fair execution of the kernel's program terminates with its result at the loss of the arguments and the
    arguments as launched. -/
theorem run : θ_run defs (onTc (τ := τ) (main (F := Ideal))) ⟨m, fun _ => 0, ρ⟩ (fun r => ∀ c : Dev nD,
      r.2.mem ((c.tc : Thread nD τ).loc main_v45)
        = (fun _ => lossFinal (m ((c : Thread nD τ).loc main_arg0)) (m ((c : Thread nD τ).loc main_arg1))
            (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W9_result m ρ c), (h c).2⟩)
    (Cert.KernelIdeal.Launched.run_result m ρ)

end Cert.KernelIdeal.RunValue

end
-- ==== Proof.SpecLaws.lean ====
/-
  Laws of the specification over the extended reals: a one-hot contraction reads one row; real inputs give real segment
  means and real intra terms; the inter term is not negative; and the last step of the two programs agrees —
  the mean over the pixels of (L − xₙ) is L − mean(xₙ) when every xₙ is real and L is the logarithm of a positive sum.
-/
import proofs.«400441_j2886218023667_1_alg».proof.Proof.Spec
import proofs.«400441_j2886218023667_1_alg».proof.Proof.Inter
import Idealize.ShloMosaic.PureOps.Ideal.Laws
import Mathlib.Data.EReal.Basic
import Mathlib.Data.EReal.Operations
import Mathlib.Data.EReal.Inv
import Mathlib.Algebra.BigOperators.Group.Finset.Basic
import Mathlib.Analysis.SpecialFunctions.Log.Basic

noncomputable section

open Idealize.ShloMosaic
open Idealize.ShloMosaic.ValueIdx (ix2)
open scoped BigOperators

namespace Cert.SegLoss

/-! ### Reals inside the extended reals

The coercion ℝ → EReal is additive, multiplicative and monotone, so it goes through finite sums and through maxima; and
the ideal quotient of two reals, the divisor not zero, is the real quotient. -/

/-- A finite sum of coerced reals is the coerced real sum. -/
theorem sum_coe {α : Type*} (s : Finset α) (f : α → ℝ) :
    ∑ a ∈ s, ((f a : ℝ) : EReal) = ((∑ a ∈ s, f a : ℝ) : EReal) := by
  classical
  refine Finset.induction_on s (by simp) fun a t ha ih => ?_
  rw [Finset.sum_insert ha, Finset.sum_insert ha, ih, EReal.coe_add]

/-- The maximum of two coerced reals is the coerced real maximum. -/
theorem max_coe (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The ideal quotient of a real by a real that is not zero is the real quotient. -/
theorem div_real (a : ℝ) {b : ℝ} (hb : b ≠ 0) :
    Ideal.div ((a : ℝ) : EReal) ((b : ℝ) : EReal) = ((a * (1 / b) : ℝ) : EReal) := by
  rw [Ideal.div_coe hb, ← EReal.coe_mul]

/-- A sum of products of coerced reals over the 32 channels is the coerced real sum of products. -/
theorem dot_coe (a b : Fin 32 → ℝ) :
    ∑ c : Fin 32, ((a c : ℝ) : EReal) * ((b c : ℝ) : EReal) = ((∑ c : Fin 32, a c * b c : ℝ) : EReal) := by
  rw [← sum_coe]
  exact Finset.sum_congr rfl fun c _ => (EReal.coe_mul _ _).symm

/-- The ideal square root of a sum of squares of reals is the real square root: the sum is not negative. -/
theorem sqrt_sq_coe (a : Fin 32 → ℝ) :
    Ideal.sqrt (∑ c : Fin 32, ((a c : ℝ) : EReal) * ((a c : ℝ) : EReal))
      = ((Real.sqrt (∑ c : Fin 32, a c * a c) : ℝ) : EReal) := by
  rw [dot_coe, Ideal.sqrt_coe, if_neg (not_lt.mpr (Finset.sum_nonneg fun c _ => mul_self_nonneg (a c)))]

/-! ### The four float words -/

/-- The word of 1 is the real 1. -/
theorem oneW_eq : oneW = ((1 : ℝ) : EReal) := by
  simp [Ideal.ofBits, Ideal.ieee, -EReal.coe_mul]; norm_num

/-- The temperature word is the real 1/2. -/
theorem half_eq : half = (((1 : ℝ) / 2 : ℝ) : EReal) := by
  simp [Ideal.ofBits, Ideal.ieee, -EReal.coe_mul]; norm_num

/-- The pixel-count word is the real 2^20. -/
theorem npix_eq : npix = ((1048576 : ℝ) : EReal) := by
  simp [Ideal.ofBits, Ideal.ieee, -EReal.coe_mul]; norm_num

/-- The clamp word: exponent field 100, fraction 2870391, so (2^23 + 2870391) · 2^(100 − 127 − 23), a positive real. -/
theorem eps_eq : eps = (((11258999 : ℝ) * (2 : ℝ) ^ (-50 : ℤ) : ℝ) : EReal) := by
  simp [Ideal.ofBits, Ideal.ieee, -EReal.coe_mul]

theorem eps_pos_real : ∃ r : ℝ, 0 < r ∧ eps = ((r : ℝ) : EReal) :=
  ⟨(11258999 : ℝ) * (2 : ℝ) ^ (-50 : ℤ), by positivity, eps_eq⟩

/-! ### The one-hot weight as a real -/

/-- The one-hot weight as a real number: 1 or 0. -/
def hotR (sg : Fin 1048576 → BitVec 32) (s : Fin 1024) (n : Fin 1048576) : ℝ :=
  if BitVec.ofNat 32 s.val = sg n then 1 else 0

theorem hot_coe (sg : Fin 1048576 → BitVec 32) (s : Fin 1024) (n : Fin 1048576) :
    hot sg s n = ((hotR sg s n : ℝ) : EReal) := by
  unfold hot hotR
  split_ifs <;> simp

/-- The one-hot weight times a real is a real. -/
theorem hot_mul_coe (sg : Fin 1048576 → BitVec 32) (s : Fin 1024) (n : Fin 1048576) (y : ℝ) :
    hot sg s n * ((y : ℝ) : EReal) = ((hotR sg s n * y : ℝ) : EReal) := by
  rw [hot_coe, EReal.coe_mul]

/-- Two segment numbers below 1024 with the same 32-bit word are equal: both are below 2^32. -/
theorem seg_word_inj {s s' : Fin 1024} (h : BitVec.ofNat 32 s'.val = BitVec.ofNat 32 s.val) : s' = s := by
  have h1 := s'.isLt
  have h2 := s.isLt
  have h3 := congrArg BitVec.toNat h
  rw [BitVec.toNat_ofNat, BitVec.toNat_ofNat, Nat.mod_eq_of_lt (by omega), Nat.mod_eq_of_lt (by omega)] at h3
  exact Fin.ext h3

/-- When pixel `n` carries segment `s`, the one-hot contraction over the segments reads row `s` of the table. -/
theorem pick_eq_row (M : SM.Idx → EReal) (sg : Fin 1048576 → BitVec 32) (c : Fin 32) (n : Fin 1048576) (s : Fin 1024)
    (hs : sg n = BitVec.ofNat 32 s.val) : pick M sg c n = M (ix2 s c) := by
  unfold pick
  rw [Finset.sum_eq_single s]
  · -- the surviving term: the weight is 1
    unfold hot
    rw [if_pos hs.symm, mul_one]
  · -- every other segment has weight 0
    intro s' _ hne
    unfold hot
    rw [if_neg (fun h => hne (seg_word_inj (h.trans hs))), mul_zero]
  · intro h
    exact absurd (Finset.mem_univ s) h

/-- Real embeddings have real segment means. -/
theorem meansArr_real (X : SE.Idx → EReal) (sg : Fin 1048576 → BitVec 32) (hX : ∀ i, ∃ r : ℝ, X i = (r : EReal)) (i : SM.Idx) :
    ∃ r : ℝ, meansArr (sumsArr X sg) (cntsArr sg) i = (r : EReal) := by
  choose f hf using hX
  -- the segment's sum and its count are coerced real sums
  have hs : sumsArr X sg i = ((∑ n : Fin 1048576, hotR sg (i 0) n * f (ix2 (i 1) n) : ℝ) : EReal) := by
    rw [← sum_coe]
    refine Finset.sum_congr rfl fun n _ => ?_
    exact (congrArg (fun y => hot sg (i 0) n * y) (hf (ix2 (i 1) n))).trans (hot_mul_coe sg (i 0) n _)
  have hc : cntsArr sg (ix2 (i 0) (0 : Fin 1)) = ((∑ n : Fin 1048576, hotR sg (i 0) n : ℝ) : EReal) := by
    rw [← sum_coe]
    exact Finset.sum_congr rfl fun n _ => hot_coe sg (i 0) n
  -- the divisor max(count, 1) is a real at least 1
  have hd : max (∑ n : Fin 1048576, hotR sg (i 0) n) (1 : ℝ) ≠ 0 :=
    (lt_of_lt_of_le one_pos (le_max_right _ _)).ne'
  unfold meansArr
  rw [hs, hc, oneW_eq, max_coe, div_real _ hd]
  exact ⟨_, rfl⟩

/-- The clamped cosine of two real 32-vectors is real: each clamped norm is a real at least eps, so the divisor is a
    positive real, and the temperature is the real 1/2. -/
theorem cosT_real (a b : Fin 32 → ℝ) :
    ∃ r : ℝ, cosT (fun c => ((a c : ℝ) : EReal)) (fun c => ((b c : ℝ) : EReal)) = (r : EReal) := by
  obtain ⟨e, he, heps⟩ := eps_pos_real
  have hd : max (Real.sqrt (∑ c : Fin 32, a c * a c)) e * max (Real.sqrt (∑ c : Fin 32, b c * b c)) e ≠ 0 :=
    (mul_pos (lt_of_lt_of_le he (le_max_right _ _)) (lt_of_lt_of_le he (le_max_right _ _))).ne'
  have hh : ((1 : ℝ) / 2 : ℝ) ≠ 0 := by norm_num
  unfold cosT
  rw [dot_coe, sqrt_sq_coe, sqrt_sq_coe, heps, max_coe, max_coe, ← EReal.coe_mul, div_real _ hd, half_eq, div_real _ hh]
  exact ⟨_, rfl⟩

/-- Real embeddings against a real table give a real intra term. -/
theorem intraAt_real (X : SE.Idx → EReal) (sg : Fin 1048576 → BitVec 32) (M : SM.Idx → EReal)
    (hX : ∀ i, ∃ r : ℝ, X i = (r : EReal)) (hM : ∀ i, ∃ r : ℝ, M i = (r : EReal)) (n : Fin 1048576) :
    ∃ r : ℝ, intraAt X sg M n = (r : EReal) := by
  choose f hf using hX
  choose g hg using hM
  have ha : (fun c => embAt X c n) = fun c => ((f (ix2 c n) : ℝ) : EReal) := funext fun c => hf _
  -- the picked row is a finite sum of real × (0 or 1)
  have hb : (fun c => pick M sg c n) = fun c => ((∑ s : Fin 1024, g (ix2 s c) * hotR sg s n : ℝ) : EReal) :=
    funext fun c => by
      unfold pick
      rw [← sum_coe]
      exact Finset.sum_congr rfl fun s _ => by rw [hg, hot_coe, EReal.coe_mul]
  unfold intraAt
  rw [ha, hb]
  exact cosT_real _ _

/-- The ideal exponential is nowhere negative: 0 at ⊥, ⊤ at ⊤, the real exponential in between. -/
theorem exp_nonneg (x : EReal) : 0 ≤ Ideal.exp x := by
  induction x using EReal.rec with
  | bot => exact le_of_eq Ideal.exp_bot.symm
  | top => exact le_top
  | coe r => rw [Ideal.exp_coe]; exact EReal.coe_nonneg.mpr (Real.exp_pos r).le

/-- The inter term, a sum of exponentials from zero, is not negative (whatever the table holds). -/
theorem inter_nonneg (M : FVec Ideal Cert.KernelIdeal.S1024x32 .f32) (e : IVec Cert.KernelIdeal.S2x8192 32) :
    (0 : EReal) ≤ Cert.KernelIdeal.Tail.inter (F := Ideal) M e ValueIdx.ix0 := by
  unfold Cert.KernelIdeal.Tail.inter
  -- a host sum into the rank-0 shape is the initial value plus the sum over every index of the operand
  unfold Host.reduceAdd
  rw [Ideal.hostReduceAdd_def, Ideal.hostReduceAdd_total _ (fun b => b.elim0)]
  refine add_nonneg (le_of_eq ?_) (Finset.sum_nonneg fun i _ => exp_nonneg _)
  exact Ideal.ofBits_zero_f32.symm

/-- The last step. With every `x n` real and `B ≥ 0`, `L = log (∑ₙ exp (x n) + B)` is real or `⊤`, and the mean over the
    `N = 2^20` pixels of `L − x n` (a sum started from zero, divided by the word of `N`) is `L − (∑ₙ x n) / N`. -/
theorem mean_shift (x : Fin 1048576 → EReal) (hx : ∀ n, ∃ r : ℝ, x n = (r : EReal)) (B : EReal) (hB : 0 ≤ B) :
    Ideal.div ((0 : EReal) + ∑ n : Fin 1048576, (Ideal.log (((0 : EReal) + ∑ k : Fin 1048576, Ideal.exp (x k)) + B) - x n)) npix
      = lossOf (∑ k : Fin 1048576, Ideal.exp (x k)) (∑ n : Fin 1048576, x n) B := by
  choose r hr using hx
  -- the sum of exponentials is a positive real A, the sum of the x n a real
  have hA : ∑ k : Fin 1048576, Ideal.exp ((r k : ℝ) : EReal) = ((∑ k : Fin 1048576, Real.exp (r k) : ℝ) : EReal) :=
    sum_coe _ _
  have hApos : 0 < ∑ k : Fin 1048576, Real.exp (r k) :=
    Finset.sum_pos (fun k _ => Real.exp_pos _) ⟨⟨0, by norm_num⟩, Finset.mem_univ _⟩
  have hR : ∑ n : Fin 1048576, ((r n : ℝ) : EReal) = ((∑ n : Fin 1048576, r n : ℝ) : EReal) := sum_coe _ _
  have hN : (1048576 : ℝ) ≠ 0 := by norm_num
  unfold lossOf
  simp only [hr, zero_add]
  rw [hA, hR, npix_eq, div_real _ hN]
  induction B using EReal.rec with
  | bot => exact absurd hB (not_le.mpr EReal.bot_lt_zero)
  | top =>
    -- the logarithm is ⊤, every term ⊤ − real = ⊤, their sum over the (nonempty) pixels ⊤, and ⊤ over a positive real ⊤
    rw [EReal.coe_add_top, Ideal.log_top]
    have hsum : ∑ n : Fin 1048576, ((⊤ : EReal) - ((r n : ℝ) : EReal)) = ⊤ := by
      rw [Finset.sum_congr rfl fun n _ => EReal.top_sub_coe (r n)]
      exact top_le_iff.mp (Finset.single_le_sum (f := fun _ : Fin 1048576 => (⊤ : EReal)) (fun _ _ => le_top)
        (Finset.mem_univ (⟨0, by norm_num⟩ : Fin 1048576)))
    rw [hsum, Ideal.div_coe hN, EReal.top_mul_coe_of_pos (by norm_num), EReal.top_sub_coe]
  | coe b =>
    -- A + B is a positive real, its logarithm L a real; what remains is arithmetic in ℝ
    have hb : 0 ≤ b := EReal.coe_nonneg.mp hB
    rw [← EReal.coe_add, Ideal.log_coe, if_neg (not_le.mpr (add_pos_of_pos_of_nonneg hApos hb))]
    have hsum : ∑ n : Fin 1048576, (((Real.log (∑ k : Fin 1048576, Real.exp (r k) + b) : ℝ) : EReal) - ((r n : ℝ) : EReal))
        = ((1048576 * Real.log (∑ k : Fin 1048576, Real.exp (r k) + b) - ∑ n : Fin 1048576, r n : ℝ) : EReal) := by
      rw [Finset.sum_congr rfl fun n _ => (EReal.coe_sub _ (r n)).symm, sum_coe, Finset.sum_sub_distrib, Finset.sum_const,
        Finset.card_univ, Fintype.card_fin, nsmul_eq_mul]
      norm_num
    rw [hsum, div_real _ hN, ← EReal.coe_sub]
    exact congrArg Real.toEReal (by ring)

end Cert.SegLoss

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.LibVecScatterAdd.lean ====
/-
  An accumulating scatter of a vector of scalars into a vector, read at an index on the extended reals.

  The scatter takes an operand `x : [N]`, updates `upd : [R]` and indices as a column `idx : [R, 1]`, with an `add`
  body: no update window axis, inserted window axis 0, the scatter index naming operand axis 0 (the segment sum of
  `upd` by `idx`, added onto `x`). Update element `r` lands on operand element `idx[r, 0]` (the index read signed,
  NOT clamped; outside `[0, N)` the update is dropped). So element `n` of the result is `x n` plus the sum of `upd r`
  over the `r` whose index is `n`.
-/
import Idealize.ShloMosaic.Lib.ValueIdx
import Idealize.ShloMosaic.Lib.ValueIdxRank1
import Idealize.ShloMosaic.PureOps.Ideal.Laws

noncomputable section

namespace Idealize.ShloMosaic.ValueIdx

section VecScatterAdd

/-- Those dimension numbers for an operand `[N]`, scatter indices `[R, 1]` and updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: no operand axis is left for an update window. -/
theorem vs_not_mem_sKept {N R : Nat}
    (wf : ScatterDims.WF ⟨1, ![N]⟩ ⟨2, ![R, 1]⟩ ⟨1, ![R]⟩ [] [0] [0] 1) :
    (0 : Fin 1) ∉ (vecScatterDims N R wf).sKept := by
  show (0 : Fin 1) ∉ (List.finRange 1).filter (fun a => a ∉ [(0 : Fin 1)])
  decide

/-- On the operand's axis the window coordinate is `0`: an update is one scalar. -/
theorem vs_window {N R : Nat}
    (wf : ScatterDims.WF ⟨1, ![N]⟩ ⟨2, ![R, 1]⟩ ⟨1, ![R]⟩ [] [0] [0] 1) (r : Fin R) :
    (vecScatterDims N R wf).window (ix1 r) 0 = 0 := by
  unfold ScatterDims.window
  rw [dif_neg (vs_not_mem_sKept wf)]

/-- On the operand's axis the window starts at update `r`'s index `idx[r, 0]`, read signed. -/
theorem vs_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `r` lands on operand element `n` iff `r`'s index, read signed, is `n`. -/
theorem vecScatter_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start, vs_window]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start, vs_window] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start, vs_window]; omega
  · rename_i h
    constructor
    · intro he; cases he
    · intro e0
      exact absurd ⟨by omega, by omega⟩ h

/-- THE VECTOR SCATTER-ADD READ AT `n` on the extended reals: the operand's element plus the sum of the updates whose
    index is `n`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, ← Equiv.sum_comp (idxEquiv1 (n := R)).symm]
  refine Finset.sum_congr rfl (fun r _ => ?_)
  show (if (vecScatterDims N R wf).resultIdx? (ix1 r) idx = some (ix1 n) then upd (ix1 r) else 0) = _
  simp only [vecScatter_resultIdx_iff]

end VecScatterAdd

end Idealize.ShloMosaic.ValueIdx

end
-- ==== Proof.RefMeans.lean ====
import proofs.«400441_j2886218023667_1_alg».proof.Proof.Gen.ReferenceIdeal.Read
import proofs.«400441_j2886218023667_1_alg».proof.Proof.Spec
import proofs.«400441_j2886218023667_1_alg».proof.Proof.LibRowScatterAdd
import proofs.«400441_j2886218023667_1_alg».proof.Proof.LibVecScatterAdd
import Idealize.ShloMosaic.Lib.ValueIdx
import Idealize.ShloMosaic.Lib.IdealHost
import Idealize.ShloMosaic.Lib.Pipeline.Value
import Idealize.ShloMosaic.PureOps.Ideal.Laws

noncomputable section

open Idealize.ShloMosaic Idealize.ShloMosaic.TcCoe

namespace Cert.ReferenceIdeal.RefMeans

open Cert.ReferenceIdeal Cert.ReferenceIdeal.Gen Cert.ReferenceIdeal.Read Cert.SegLoss
open Idealize.ShloMosaic.ValueIdx (ix1 ix2 ix4)
open scoped BigOperators

/-- A 32-bit word read signed is the natural number `k < 1024` exactly when it is the word of `k`. -/
theorem toInt_eq_iff_ofNat (w : BitVec 32) (k : Nat) (hk : k < 1024) :
    w.toInt = (k : Int) ↔ BitVec.ofNat 32 k = w := by
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The ids as an [N, 1] column, read at pixel `n`: the pixel's segment id. -/
theorem ids4_at (x1 : (⟨S1x1x1024x1024, .i32⟩ : BufTy).Contents (Elt Ideal)) (n : Fin 1048576) :
    val_main_v4 (F := Ideal) x1 (ix2 n (0 : Fin 1)) = segOf x1 n := by
  rw [val_main_v4_apply, val_main_v2_apply]
  unfold segOf
  congr 1
  funext a
  refine Fin.ext ?_
  have hn := n.isLt
  match a with
  | ⟨0, _⟩ => rfl
  | ⟨1, _⟩ => rfl
  | ⟨2, _⟩ => show n.val / 1024 % 1024 = n.val / 1024; omega
  | ⟨3, _⟩ => rfl

/-- The same column as the second scatter reads it. -/
theorem ids8_at (x1 : (⟨S1x1x1024x1024, .i32⟩ : BufTy).Contents (Elt Ideal)) (n : Fin 1048576) :
    val_main_v8 (F := Ideal) x1 (ix2 n (0 : Fin 1)) = segOf x1 n := ids4_at x1 n

/-- The transposed flattened embeddings read at (pixel, channel). -/
theorem emb_at (x0 : (⟨S1x32x1024x1024, .f32⟩ : BufTy).Contents (Elt Ideal)) (n : Fin 1048576) (c : Fin 32) :
    val_main_v1 (F := Ideal) x0 (ix2 n c) = embAt (embOf x0) c n := by
  rw [val_main_v1_apply, val_main_v0_apply]
  unfold embAt embOf
  congr 1
  funext a
  refine Fin.ext ?_
  have hn := n.isLt
  have hc := c.isLt
  match a with
  | ⟨0, _⟩ => rfl
  | ⟨1, _⟩ => show (c.val * 1048576 + n.val) / 1048576 % 32 = c.val; omega
  | ⟨2, _⟩ => show (c.val * 1048576 + n.val) / 1024 % 1024 = n.val / 1024; omega
  | ⟨3, _⟩ => show (c.val * 1048576 + n.val) % 1024 = n.val % 1024; omega

/-- The accumulated sums read at (segment, channel): the sum over all pixels of the pixel's channel weighted by the
    one-hot of its segment id. -/
theorem sums_at (x0 : (⟨S1x32x1024x1024, .f32⟩ : BufTy).Contents (Elt Ideal)) (x1 : (⟨S1x1x1024x1024, .i32⟩ : BufTy).Contents (Elt Ideal))
    (s : Fin 1024) (c : Fin 32) :
    val_main_v5 (F := Ideal) x0 x1 (ix2 s c) = ∑ n : Fin 1048576, hot (segOf x1) s n * embAt (embOf x0) c n := by
  unfold val_main_v5
  have key : ∀ (x : (⟨S1024x32, .f32⟩ : BufTy).Contents (Elt Ideal)) (idx : (⟨S1048576x1, .i32⟩ : BufTy).Contents (Elt Ideal))
      (upd : (⟨S1048576x32, .f32⟩ : BufTy).Contents (Elt Ideal)),
      Host.scatterAdd (F := Ideal) (φ := .f32) scatter_S1024x32_S1048576x1_S1048576x32_1_0_0_1 x idx upd (ix2 s c)
        = x (ix2 s c) + ∑ r : Fin 1048576, if (idx (ix2 r (0 : Fin 1))).toInt = (s.val : Int) then upd (ix2 r c) else 0 :=
    fun x idx upd => ValueIdx.rowScatterAdd_apply scatter_S1024x32_S1048576x1_S1048576x32_1_0_0_1_wf x idx upd s c
  rw [key, val_main_v3_apply, val_main_cst_apply, Ideal.ofBits_def, Ideal.ofBits_zero_f32, zero_add]
  refine Finset.sum_congr rfl (fun n _ => ?_)
  rw [ids4_at, emb_at]
  unfold hot
  by_cases h : BitVec.ofNat 32 s.val = segOf x1 n
  · rw [if_pos h, one_mul, if_pos ((toInt_eq_iff_ofNat _ _ s.isLt).2 h)]
  · rw [if_neg h, zero_mul, if_neg (fun h' => h ((toInt_eq_iff_ofNat _ _ s.isLt).1 h'))]

/-- The accumulated counts read at a segment: the sum over all pixels of the one-hot of the pixel's segment id. -/
theorem cnts_at (x1 : (⟨S1x1x1024x1024, .i32⟩ : BufTy).Contents (Elt Ideal)) (s : Fin 1024) :
    val_main_v9 (F := Ideal) x1 (ix1 s) = ∑ n : Fin 1048576, hot (segOf x1) s n := by
  unfold val_main_v9
  have key : ∀ (x : (⟨S1024, .f32⟩ : BufTy).Contents (Elt Ideal)) (idx : (⟨S1048576x1, .i32⟩ : BufTy).Contents (Elt Ideal))
      (upd : (⟨S1048576, .f32⟩ : BufTy).Contents (Elt Ideal)),
      Host.scatterAdd (F := Ideal) (φ := .f32) scatter_S1024_S1048576x1_S1048576_n_0_0_1 x idx upd (ix1 s)
        = x (ix1 s) + ∑ r : Fin 1048576, if (idx (ix2 r (0 : Fin 1))).toInt = (s.val : Int) then upd (ix1 r) else 0 :=
    fun x idx upd => ValueIdx.vecScatterAdd_apply scatter_S1024_S1048576x1_S1048576_n_0_0_1_wf x idx upd s
  rw [key, val_main_v7_apply, val_main_cst_1_apply, Ideal.ofBits_def, Ideal.ofBits_zero_f32, zero_add]
  refine Finset.sum_congr rfl (fun n _ => ?_)
  rw [ids8_at]
  unfold hot
  by_cases h : BitVec.ofNat 32 s.val = segOf x1 n
  · rw [if_pos h, if_pos ((toInt_eq_iff_ofNat _ _ s.isLt).2 h), val_main_v6_apply, val_main_cst_0_apply,
      Ideal.ofBits_def, Ideal.ofBits_one_f32]
  · rw [if_neg h, if_neg (fun h' => h ((toInt_eq_iff_ofNat _ _ s.isLt).1 h'))]

/-- The quotient read at (segment, channel): the accumulated sum over the larger of the accumulated count and one. -/
theorem means_at (x0 : (⟨S1x32x1024x1024, .f32⟩ : BufTy).Contents (Elt Ideal)) (x1 : (⟨S1x1x1024x1024, .i32⟩ : BufTy).Contents (Elt Ideal))
    (s : Fin 1024) (c : Fin 32) :
    val_main_v14 (F := Ideal) x0 x1 (ix2 s c) = meansOf x0 x1 (ix2 s c) := by
  have hi : idx_main_v12 (idx_main_v13 (ix2 s c)) = ix1 s :=
    funext fun a => Fin.ext (by match a with | ⟨0, _⟩ => rfl)
  rw [val_main_v14_apply, val_main_v13_apply, val_main_v12_apply, val_main_v11_apply, val_main_v10_apply,
    val_main_cst_2_apply, hi, sums_at, cnts_at]
  simp only [Ideal.hostDivf_def, Ideal.maximumf_def, Ideal.ofBits_def]
  rfl

/-- The reference's table of segment means — two accumulating scatters of the transposed embeddings and of ones at the
    segment ids, then the quotient by max(count, 1) — is the specification's table of the same arguments. -/
theorem ref_means (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) :
    val_main_v14 (F := Ideal) x0 x1 = meansOf x0 x1 := by
  funext i
  rw [ValueIdx.eq_ix2 i]
  exact means_at x0 x1 (i 0) (i 1)

end Cert.ReferenceIdeal.RefMeans

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.RefValue.lean ====
/-
  The reference program's result is the loss of its arguments.

  After its table of segment means, the reference (i) gathers for every pixel the row of the table its id names — an id in
  [0, 1024) is not negative, so the wrap by 1024 keeps it, and the clamp of the gather keeps it too, so the row read is the
  one-hot contraction of the table at that pixel —, (ii) takes per pixel the cosine of that row and the pixel's embedding
  with each norm clamped below and divides by the temperature: the specification's intra term with the two vectors
  exchanged, equal to it because products commute on the extended reals, (iii) computes the inter term by the very host
  operations of the shared chain applied to the table and the edges, and (iv) averages over the pixels the logarithm of
  the two sums of exponentials minus the intra term, which is the logarithm minus the mean intra term when every intra
  term is real and the inter term is not negative.
-/
import proofs.«400441_j2886218023667_1_alg».proof.Proof.Gen.ReferenceIdeal.Read
import proofs.«400441_j2886218023667_1_alg».proof.Proof.Spec
import Idealize.ShloMosaic.Lib.ValueIdx
import Idealize.ShloMosaic.Lib.ValueIdxRank1
import Idealize.ShloMosaic.Lib.Pipeline.Value
import Idealize.ShloMosaic.PureOps.Ideal.Laws
import proofs.«400441_j2886218023667_1_alg».proof.Proof.Final
import proofs.«400441_j2886218023667_1_alg».proof.Proof.SpecLaws
import proofs.«400441_j2886218023667_1_alg».proof.Proof.RefMeans
import proofs.«400441_j2886218023667_1_alg».proof.Proof.LibRowGather

noncomputable section

open Idealize.ShloMosaic Idealize.ShloMosaic.TcCoe

namespace Cert.ReferenceIdeal.RefValue

open Cert.ReferenceIdeal Cert.ReferenceIdeal.Gen Cert.ReferenceIdeal.Read Cert.SegLoss
open Idealize.ShloMosaic.ValueIdx (ix0 ix1 ix2 ix4 eq_ix0 eq_ix1 eq_ix2 rowGather_apply rowGatherDims gatherRow idxEquiv1)
open scoped BigOperators

/-- The transposed embeddings at (pixel, channel): the flattened embeddings at (channel, pixel). -/
theorem v1_at (x0 : (⟨S1x32x1024x1024, .f32⟩ : BufTy).Contents (Elt Ideal)) (n : Fin 1048576) (c : Fin 32) :
    val_main_v1 (F := Ideal) x0 (ix2 n c) = embAt (embOf x0) c n := by
  rw [val_main_v1_apply, val_main_v0_apply]
  unfold embAt embOf
  refine congrArg x0 (funext fun a => Fin.ext ?_)
  have hn : n.val < 1048576 := n.isLt
  have hc : c.val < 32 := c.isLt
  match a with
  | ⟨0, _⟩ => rfl
  | ⟨1, _⟩ => show (c.val * 1048576 + n.val) / 1048576 % 32 = c.val; omega
  | ⟨2, _⟩ => show (c.val * 1048576 + n.val) / 1024 % 1024 = n.val / 1024; omega
  | ⟨3, _⟩ => show (c.val * 1048576 + n.val) % 1024 = n.val % 1024; omega

/-- The flattened ids at a pixel. -/
theorem v2_at (x1 : (⟨S1x1x1024x1024, .i32⟩ : BufTy).Contents (Elt Ideal)) (n : Fin 1048576) :
    val_main_v2 (F := Ideal) x1 (ix1 n) = segOf x1 n := by
  rw [val_main_v2_apply]
  unfold segOf
  refine congrArg x1 (funext fun a => Fin.ext ?_)
  have hn : n.val < 1048576 := n.isLt
  match a with
  | ⟨0, _⟩ => rfl
  | ⟨1, _⟩ => rfl
  | ⟨2, _⟩ => show n.val / 1024 % 1024 = n.val / 1024; omega
  | ⟨3, _⟩ => rfl

/-- An id in [0, 1024) is not negative, so the wrap keeps it. -/
theorem v19_at (x1 : (⟨S1x1x1024x1024, .i32⟩ : BufTy).Contents (Elt Ideal))
    (hrng : ∀ i, 0 ≤ (x1 i).toInt ∧ (x1 i).toInt < 1024) (n : Fin 1048576) :
    val_main_v19 (F := Ideal) x1 (ix1 n) = segOf x1 n := by
  rw [val_main_v19_apply, val_main_v16_apply, val_main_v15_apply, val_main_c_apply, v2_at]
  have h0 : 0 ≤ (segOf x1 n).toInt := (hrng _).1
  have h : IntOp.cmpi .slt (segOf x1 n) 0#32 = 0#1 := by
    unfold IntOp.cmpi
    have : (segOf x1 n).slt 0#32 = false := by
      rw [BitVec.slt_eq_decide]
      simp only [BitVec.toInt_zero, decide_eq_false_iff_not, not_lt]; exact h0
    simp only [this]; rfl
  rw [h]; rfl

/-- The column of start indices at row `n`. -/
theorem v20_at (x1 : (⟨S1x1x1024x1024, .i32⟩ : BufTy).Contents (Elt Ideal))
    (hrng : ∀ i, 0 ≤ (x1 i).toInt ∧ (x1 i).toInt < 1024) (n : Fin 1048576) :
    val_main_v20 (F := Ideal) x1 (ix2 n (0 : Fin 1)) = segOf x1 n := by
  rw [val_main_v20_apply]
  exact v19_at x1 hrng n

/-- The row of the table gathered for pixel `n` is the row its id names: the one-hot contraction of the table. -/
theorem v21_at (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) (n : Fin 1048576) (c : Fin 32) :
    val_main_v21 (F := Ideal) x0 x1 (ix2 n c) = pick (meansOf x0 x1) (segOf x1) c n := by
  unfold val_main_v21
  rw [Cert.ReferenceIdeal.RefMeans.ref_means x0 x1 hrng]
  generalize meansOf x0 x1 = M
  have hg := rowGather_apply (N := 1024) (R := 1048576) (C := 32) (w := 32) (by decide)
    gather_S1024x32_S1048576x1_S1048576x32_1_0_n_n_0_1_132_wf M (val_main_v20 (F := Ideal) x1) n c
  have hd : gather_S1024x32_S1048576x1_S1048576x32_1_0_n_n_0_1_132
      = rowGatherDims 1024 1048576 32 gather_S1024x32_S1048576x1_S1048576x32_1_0_n_n_0_1_132_wf := rfl
  rw [hd, hg]
  have h0 : 0 ≤ (segOf x1 n).toInt := (hrng _).1
  have h1 : (segOf x1 n).toInt < 1024 := (hrng _).2
  refine (pick_eq_row M (segOf x1) c n _ ?_).symm
  show segOf x1 n = BitVec.ofNat 32 (min (val_main_v20 (F := Ideal) x1 (ix2 n (0 : Fin 1))).toInt.toNat (1024 - 1))
  rw [v20_at x1 hrng n]
  generalize segOf x1 n = w at h0 h1 ⊢
  have hw := w.isLt
  have hc : 2 * w.toNat < 2 ^ 32 := by
    by_contra hc
    rw [BitVec.toInt_eq_toNat_cond, if_neg hc] at h0
    omega
  apply BitVec.eq_of_toNat_eq
  rw [BitVec.toNat_ofNat]
  rw [BitVec.toInt_eq_toNat_cond, if_pos hc] at h1 ⊢
  omega

/-- The dot product of the gathered row and the embedding of pixel `n`. -/
theorem dot_at (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) (n : Fin 1048576) :
    val_main_v23 (F := Ideal) x0 x1 (ix1 n)
      = ∑ c : Fin 32, pick (meansOf x0 x1) (segOf x1) c n * embAt (embOf x0) c n := by
  rw [val_main_v23_apply, val_main_cst_4_apply, Ideal.ofBits_def, Ideal.ofBits_zero_f32, zero_add]
  refine Finset.sum_congr rfl fun k _ => ?_
  have e : idx_main_v23 (ix1 n) k = ix2 n k :=
    funext fun a => Fin.ext (by match a with | ⟨0, _⟩ => rfl | ⟨1, _⟩ => rfl)
  rw [e, val_main_v22_apply, v21_at x0 x1 hrng, v1_at, Ideal.mulf_def]

/-- The squared norm of the gathered row of pixel `n`. -/
theorem sqRow_at (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) (n : Fin 1048576) :
    val_main_call0_v1 (F := Ideal) x0 x1 (ix1 n)
      = ∑ c : Fin 32, pick (meansOf x0 x1) (segOf x1) c n * pick (meansOf x0 x1) (segOf x1) c n := by
  rw [val_main_call0_v1_apply, val_main_call0_cst_apply, Ideal.ofBits_def, Ideal.ofBits_zero_f32, zero_add]
  refine Finset.sum_congr rfl fun k _ => ?_
  have e : idx_main_call0_v1 (ix1 n) k = ix2 n k :=
    funext fun a => Fin.ext (by match a with | ⟨0, _⟩ => rfl | ⟨1, _⟩ => rfl)
  rw [e, val_main_call0_v0_apply, v21_at x0 x1 hrng, Ideal.mulf_def]

/-- The squared norm of the embedding of pixel `n`. -/
theorem sqEmb_at (x0 : (⟨S1x32x1024x1024, .f32⟩ : BufTy).Contents (Elt Ideal)) (n : Fin 1048576) :
    val_main_call1_v1 (F := Ideal) x0 (ix1 n)
      = ∑ c : Fin 32, embAt (embOf x0) c n * embAt (embOf x0) c n := by
  rw [val_main_call1_v1_apply, val_main_call1_cst_apply, Ideal.ofBits_def, Ideal.ofBits_zero_f32, zero_add]
  refine Finset.sum_congr rfl fun k _ => ?_
  have e : idx_main_call1_v1 (ix1 n) k = ix2 n k :=
    funext fun a => Fin.ext (by match a with | ⟨0, _⟩ => rfl | ⟨1, _⟩ => rfl)
  rw [e, val_main_call1_v0_apply, v1_at, Ideal.mulf_def]

/-- The cosine with its two vectors exchanged: products and the two clamped norms commute. -/
theorem cosT_swap (a b : Fin 32 → EReal) :
    cosT a b = Ideal.div (Ideal.div (∑ c : Fin 32, b c * a c)
      (max (Ideal.sqrt (∑ c : Fin 32, b c * b c)) (Ideal.ofBits .f32 0x322BCC77#32)
        * max (Ideal.sqrt (∑ c : Fin 32, a c * a c)) (Ideal.ofBits .f32 0x322BCC77#32)))
      (Ideal.ofBits .f32 0x3F000000#32) := by
  unfold cosT
  rw [mul_comm (max _ _) (max _ _), Finset.sum_congr rfl fun c _ => mul_comm (a c) (b c)]

/-- The intra term of pixel `n`: the reference's cosine (table row first) is the specification's (embedding first). -/
theorem ref_intra (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) (n : Fin 1048576) :
    val_main_v33 (F := Ideal) x0 x1 (ix1 n) = intraAt (embOf x0) (segOf x1) (meansOf x0 x1) n := by
  rw [val_main_v33_apply, val_main_v31_apply, val_main_v32_apply, val_main_cst_7_apply,
    val_main_v30_apply, val_main_v26_apply, val_main_v29_apply,
    val_main_v24_apply, val_main_v27_apply, val_main_v25_apply, val_main_v28_apply, val_main_cst_5_apply,
    val_main_cst_6_apply, dot_at x0 x1 hrng, sqRow_at x0 x1 hrng, sqEmb_at]
  rw [Ideal.hostDivf_def, Ideal.hostDivf_def, Ideal.mulf_def, Ideal.maximumf_def, Ideal.maximumf_def,
    Ideal.hostUnary_sqrt_def, Ideal.hostUnary_sqrt_def, Ideal.ofBits_def, Ideal.ofBits_def]
  unfold intraAt
  rw [cosT_swap]

section Inter

variable (x0 : (⟨S1x32x1024x1024, .f32⟩ : BufTy).Contents (Elt Ideal)) (x1 : (⟨S1x1x1024x1024, .i32⟩ : BufTy).Contents (Elt Ideal))
  (x2 : (⟨S2x8192, .i32⟩ : BufTy).Contents (Elt Ideal))

/-- The first ends' start indices are the shared chain's. -/
theorem start0_eq : val_main_v41 (F := Ideal) x2 = Cert.KernelIdeal.Tail.startIdx (shapeCast Cert.KernelIdeal.S8192
    (extractStridedSlice Cert.KernelIdeal.S1x8192 ![0, 0] x2 Cert.KernelIdeal.Gen.slices_S2x8192_S1x8192_0_0) Cert.KernelIdeal.Gen.shapeCasts_S1x8192_S8192) := by
  unfold val_main_v41 val_main_v40 val_main_v39 val_main_v38 val_main_v37 val_main_v36 val_main_v35 val_main_v34 val_main_c_8 val_main_c_9
  unfold Cert.KernelIdeal.Tail.startIdx
  exact rfl

/-- The second ends' likewise. -/
theorem start1_eq : val_main_v50 (F := Ideal) x2 = Cert.KernelIdeal.Tail.startIdx (shapeCast Cert.KernelIdeal.S8192
    (extractStridedSlice Cert.KernelIdeal.S1x8192 ![1, 0] x2 Cert.KernelIdeal.Gen.slices_S2x8192_S1x8192_1_0) Cert.KernelIdeal.Gen.shapeCasts_S1x8192_S8192) := by
  unfold val_main_v50 val_main_v49 val_main_v48 val_main_v47 val_main_v46 val_main_v45 val_main_v44 val_main_v43 val_main_c_10 val_main_c_11
  unfold Cert.KernelIdeal.Tail.startIdx
  exact rfl

/-- The rows of the table at the first ends. -/
theorem rows0_eq : val_main_v42 (F := Ideal) x0 x1 x2 = Cert.KernelIdeal.Tail.rows0 (F := Ideal) (val_main_v14 (F := Ideal) x0 x1) x2 := by
  unfold val_main_v42
  rw [start0_eq]
  generalize val_main_v14 (F := Ideal) x0 x1 = M
  unfold Cert.KernelIdeal.Tail.rows0
  exact rfl

/-- The rows of the table at the second ends. -/
theorem rows1_eq : val_main_v51 (F := Ideal) x0 x1 x2 = Cert.KernelIdeal.Tail.rows1 (F := Ideal) (val_main_v14 (F := Ideal) x0 x1) x2 := by
  unfold val_main_v51
  rw [start1_eq]
  generalize val_main_v14 (F := Ideal) x0 x1 = M
  unfold Cert.KernelIdeal.Tail.rows1
  exact rfl

/-- The norms of the rows at the first ends. -/
theorem norm0_eq : val_main_v54 (F := Ideal) x0 x1 x2
    = Cert.KernelIdeal.Tail.rowNorm (Cert.KernelIdeal.Tail.rows0 (F := Ideal) (val_main_v14 (F := Ideal) x0 x1) x2) := by
  unfold val_main_v54 val_main_call2_v1 val_main_call2_v0 val_main_call2_cst
  rw [rows0_eq]
  generalize Cert.KernelIdeal.Tail.rows0 (F := Ideal) (val_main_v14 (F := Ideal) x0 x1) x2 = A
  unfold Cert.KernelIdeal.Tail.rowNorm
  exact rfl

/-- The norms of the rows at the second ends. -/
theorem norm1_eq : val_main_v57 (F := Ideal) x0 x1 x2
    = Cert.KernelIdeal.Tail.rowNorm (Cert.KernelIdeal.Tail.rows1 (F := Ideal) (val_main_v14 (F := Ideal) x0 x1) x2) := by
  unfold val_main_v57 val_main_call3_v1 val_main_call3_v0 val_main_call3_cst
  rw [rows1_eq]
  generalize Cert.KernelIdeal.Tail.rows1 (F := Ideal) (val_main_v14 (F := Ideal) x0 x1) x2 = A
  unfold Cert.KernelIdeal.Tail.rowNorm
  exact rfl

/-- The reference's inter term is the shared chain of its table of means and the edges: the same host operations
    applied to the same two values. -/
theorem ref_inter : val_main_v67 (F := Ideal) x0 x1 x2
    = Cert.KernelIdeal.Tail.inter (F := Ideal) (val_main_v14 (F := Ideal) x0 x1) x2 := by
  unfold val_main_v67 val_main_v66 val_main_v63 val_main_v62 val_main_v61 val_main_v60 val_main_v59 val_main_v58 val_main_v56 val_main_v55
    val_main_v53 val_main_v52 val_main_cst_12 val_main_cst_13 val_main_cst_14 val_main_cst_15 val_main_cst_17
  rw [norm0_eq, norm1_eq, rows0_eq, rows1_eq]
  unfold Cert.KernelIdeal.Tail.inter
  generalize Cert.KernelIdeal.Tail.rows0 (F := Ideal) (val_main_v14 (F := Ideal) x0 x1) x2 = A
  generalize Cert.KernelIdeal.Tail.rows1 (F := Ideal) (val_main_v14 (F := Ideal) x0 x1) x2 = B
  exact rfl

end Inter

/-- A sum over a rank-1 shape's indices is the sum over its coordinate. -/
theorem sum_idx1 {A : Type*} [AddCommMonoid A] {m : Nat} (f : (⟨1, ![m]⟩ : Shape).Idx → A) :
    ∑ i, f i = ∑ a : Fin m, f (ix1 a) :=
  (Equiv.sum_comp (idxEquiv1 (n := m)).symm f).symm

/-- The inter term at the scalar's one index, over the specification's table. -/
theorem inter_at (x0 : (⟨S1x32x1024x1024, .f32⟩ : BufTy).Contents (Elt Ideal)) (x1 : (⟨S1x1x1024x1024, .i32⟩ : BufTy).Contents (Elt Ideal))
    (x2 : (⟨S2x8192, .i32⟩ : BufTy).Contents (Elt Ideal))
    (hrng : ∀ i, 0 ≤ (x1 i).toInt ∧ (x1 i).toInt < 1024) (j : S_.Idx) :
    val_main_v67 (F := Ideal) x0 x1 x2 j = Cert.KernelIdeal.Tail.inter (F := Ideal) (meansOf x0 x1) x2 ix0 := by
  rw [ref_inter, Cert.ReferenceIdeal.RefMeans.ref_means x0 x1 hrng, eq_ix0 j]

/-- The sum over the pixels of the exponentials of the intra terms, started from zero. -/
theorem sumExp_at (x0 : (⟨S1x32x1024x1024, .f32⟩ : BufTy).Contents (Elt Ideal)) (x1 : (⟨S1x1x1024x1024, .i32⟩ : BufTy).Contents (Elt Ideal))
    (hrng : ∀ i, 0 ≤ (x1 i).toInt ∧ (x1 i).toInt < 1024) (j : S_.Idx) :
    val_main_v65 (F := Ideal) x0 x1 j
      = (0 : EReal) + ∑ k : Fin 1048576, Ideal.exp (intraAt (embOf x0) (segOf x1) (meansOf x0 x1) k) := by
  rw [val_main_v65_apply, val_main_cst_16_apply, Ideal.ofBits_def, Ideal.ofBits_zero_f32, sum_idx1]
  refine congrArg ((0 : EReal) + ·) (Finset.sum_congr rfl fun k _ => ?_)
  rw [val_main_v64_apply, ref_intra x0 x1 hrng, Ideal.hostUnary_exp_def]

/-- Pixel `n`'s term of the last sum: the logarithm of the two sums of exponentials, minus its intra term. -/
theorem v71_at (x0 : (⟨S1x32x1024x1024, .f32⟩ : BufTy).Contents (Elt Ideal)) (x1 : (⟨S1x1x1024x1024, .i32⟩ : BufTy).Contents (Elt Ideal))
    (x2 : (⟨S2x8192, .i32⟩ : BufTy).Contents (Elt Ideal))
    (hrng : ∀ i, 0 ≤ (x1 i).toInt ∧ (x1 i).toInt < 1024) (n : Fin 1048576) :
    val_main_v71 (F := Ideal) x0 x1 x2 (ix1 n)
      = Ideal.log (((0 : EReal) + ∑ k : Fin 1048576, Ideal.exp (intraAt (embOf x0) (segOf x1) (meansOf x0 x1) k))
          + Cert.KernelIdeal.Tail.inter (F := Ideal) (meansOf x0 x1) x2 ix0)
        - intraAt (embOf x0) (segOf x1) (meansOf x0 x1) n := by
  rw [val_main_v71_apply, val_main_v70_apply, val_main_v69_apply, val_main_v68_apply, sumExp_at x0 x1 hrng,
    inter_at x0 x1 x2 hrng, ref_intra x0 x1 hrng, Ideal.subf_def, Ideal.hostUnary_log_def, Ideal.addf_def]

/-- The reference's result, for real embeddings and segment ids in [0, 1024), is the loss of the arguments. -/
theorem ref_value (x0 : (⟨S1x32x1024x1024, .f32⟩ : BufTy).Contents (Elt Ideal)) (x1 : (⟨S1x1x1024x1024, .i32⟩ : BufTy).Contents (Elt Ideal))
    (x2 : (⟨S2x8192, .i32⟩ : BufTy).Contents (Elt Ideal))
    (hfin : ∀ i, ∃ r : ℝ, x0 i = (r : EReal)) (hrng : ∀ i, 0 ≤ (x1 i).toInt ∧ (x1 i).toInt < 1024) :
    val_main_v73 (F := Ideal) x0 x1 x2 = fun _ => lossFinal x0 x1 x2 := by
  funext i
  have hX : ∀ j, ∃ r : ℝ, embOf x0 j = (r : EReal) := fun j => hfin _
  have hM : ∀ j, ∃ r : ℝ, meansOf x0 x1 j = (r : EReal) := meansArr_real (embOf x0) (segOf x1) hX
  have hx : ∀ n, ∃ r : ℝ, intraAt (embOf x0) (segOf x1) (meansOf x0 x1) n = (r : EReal) :=
    intraAt_real (embOf x0) (segOf x1) (meansOf x0 x1) hX hM
  have hB : (0 : EReal) ≤ Cert.KernelIdeal.Tail.inter (F := Ideal) (meansOf x0 x1) x2 ix0 :=
    inter_nonneg (meansOf x0 x1) x2
  rw [val_main_v73_apply, val_main_cst_19_apply, val_main_v72_apply, val_main_cst_18_apply, sum_idx1,
    Ideal.hostDivf_def, Ideal.ofBits_def, Ideal.ofBits_def, Ideal.ofBits_zero_f32,
    Finset.sum_congr rfl fun n _ => v71_at x0 x1 x2 hrng n]
  unfold lossFinal sumExp sumIntra
  exact mean_shift (fun n => intraAt (embOf x0) (segOf x1) (meansOf x0 x1) n) hx _ hB

end Cert.ReferenceIdeal.RefValue

end
-- ==== Proof.PreDecode.lean ====
/-
  What the precondition says of the arguments: every embedding is a real number, and every segment id, read as a
  signed word, lies in [0, 1024).
-/
import proofs.«400441_j2886218023667_1_alg».proof.Pre_finite_inputs
import proofs.«400441_j2886218023667_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate
import Mathlib.Data.EReal.Basic

noncomputable section

open Idealize.ShloMosaic

namespace Cert.PreDecode

open Cert.Pre_finite_inputs Cert.Pre_finite_inputs.Gen

/-- The precondition is a conjunction of three "for all entries" statements; all ones, it gives each of the three
    element comparisons at every index. -/
theorem parts_of_pre (x0 : FVec Ideal S1x32x1024x1024 .f32) (x1 : IVec S1x1x1024x1024 32) (x2 : IVec S2x8192 32)
    (h : Cert.Pre_finite_inputs.fn (F := Ideal) x0 x1 x2 = fun _ => 1#1) :
    (∀ i, Ideal.cmp .olt (max (x0 i) (-(x0 i))) (Ideal.ofBits .f32 0x7F800000#32) = 1#1)
      ∧ (∀ i, IntOp.cmpi .sge (x1 i) 0#32 = 1#1)
      ∧ (∀ i, IntOp.cmpi .slt (x1 i) 1024#32 = 1#1) := by
  -- the rank-0 shape has one index
  haveI : Subsingleton S_.Idx := ⟨fun a b => funext fun d => d.elim0⟩
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    rw [cmpf, Host.absf, StableHlo.Predicate.bcast_scalar _ h_S_] at e
    exact e
  · have e := Host.reduce_andi_all _ _ _ _ _ h2 i
    rw [cmpi, StableHlo.Predicate.bcast_scalar _ h_S_] at e
    exact e
  · have e := Host.reduce_andi_all _ _ _ _ _ h3 i
    rw [cmpi, StableHlo.Predicate.bcast_scalar _ h_S_] at e
    exact e

/-- The precondition, all ones, makes every embedding a real number -/
theorem finite_of_pre (x0 : FVec Ideal S1x32x1024x1024 .f32) (x1 : IVec S1x1x1024x1024 32) (x2 : IVec S2x8192 32)
    (h : Cert.Pre_finite_inputs.fn (F := Ideal) x0 x1 x2 = fun _ => 1#1) (i : S1x32x1024x1024.Idx) :
    ∃ r : ℝ, x0 i = (r : EReal) := by
  obtain ⟨hf, _, _⟩ := parts_of_pre x0 x1 x2 h
  have htop : Ideal.ofBits .f32 0x7F800000#32 = ⊤ := by simp [Ideal.ofBits, Ideal.ieee]
  -- an extended real whose absolute value is strictly below +∞ is neither infinity
  have key : ∀ x : EReal, Ideal.cmp .olt (max x (-x)) ⊤ = 1#1 → ∃ r : ℝ, x = (r : EReal) := by
    intro x hx
    induction x using EReal.rec with
    | bot => simp [Ideal.cmp] at hx
    | coe r => exact ⟨r, rfl⟩
    | top => simp [Ideal.cmp] at hx
  exact key (x0 i) (by rw [← htop]; exact hf i)

/-- and every segment id a row of the 1024-row table. -/
theorem range_of_pre (x0 : FVec Ideal S1x32x1024x1024 .f32) (x1 : IVec S1x1x1024x1024 32) (x2 : IVec S2x8192 32)
    (h : Cert.Pre_finite_inputs.fn (F := Ideal) x0 x1 x2 = fun _ => 1#1) (i : S1x1x1024x1024.Idx) :
    0 ≤ (x1 i).toInt ∧ (x1 i).toInt < 1024 := by
  obtain ⟨_, hge, hlt⟩ := parts_of_pre x0 x1 x2 h
  have h1 := IntOp.cmpi_sge.1 (hge i)
  have h2 := IntOp.cmpi_slt.1 (hlt i)
  exact ⟨by simpa using h1, by simpa using h2⟩

end Cert.PreDecode

end
-- ==== Proof.lean ====
/-
  The proof of `Cert.Claim`: the two programs — a Pallas kernel that takes segment means by one-hot matrix products over
  tiles of 2048 pixels and then, in a second pass, the cosine of every pixel's embedding with its segment's mean, and the
  jnp reference that takes the means by two accumulating scatters and the cosines by a row gather — end at one value,
  the loss  log(∑ₙ exp(intraₙ) + ∑ₑ exp(interₑ)) − (∑ₙ intraₙ) / N  of the arguments (`Cert.SegLoss.lossFinal`),
  when every embedding is a real number and every segment id is one of the 1024 rows of the table.

  * The kernel's run is followed boundary by boundary (Proof/KernelRun.lean) over the two regions' accumulations
    (Proof/Region0.lean, Proof/Region1.lean: a sum over the grid's tiles is the sum over all pixels).
  * The reference's run is read stage by stage (Proof/RefMeans.lean, Proof/RefValue.lean): a scatter of rows at an id
    is the one-hot weighted sum; a gather at an id in range reads that row, which is what the one-hot contraction reads;
    the inter term is the same chain of host operations in both programs; the mean over the pixels of (L − intraₙ) is
    L − mean(intraₙ) because every intraₙ is real (Proof/SpecLaws.lean).
  * The precondition gives the two facts used (Proof/PreDecode.lean).
  The idealization's one rewrite, a round trip through bf16 on the one-hot matrix, is the rule's own statement.
-/
import proofs.«400441_j2886218023667_1_alg».proof.Defs
import proofs.«400441_j2886218023667_1_alg».proof.Proof.Gen.Kernel
import proofs.«400441_j2886218023667_1_alg».proof.Proof.Gen.Kernel.Skeleton
import proofs.«400441_j2886218023667_1_alg».proof.Proof.Gen.Kernel.Launch
import proofs.«400441_j2886218023667_1_alg».proof.Proof.Gen.Kernel.Points
import proofs.«400441_j2886218023667_1_alg».proof.Proof.Gen.Kernel.Frame
import proofs.«400441_j2886218023667_1_alg».proof.Proof.Gen.KernelIdeal
import proofs.«400441_j2886218023667_1_alg».proof.Proof.Gen.KernelIdeal.Skeleton
import proofs.«400441_j2886218023667_1_alg».proof.Proof.Gen.KernelIdeal.Launch
import proofs.«400441_j2886218023667_1_alg».proof.Proof.Gen.KernelIdeal.Points
import proofs.«400441_j2886218023667_1_alg».proof.Proof.Gen.KernelIdeal.Frame
import proofs.«400441_j2886218023667_1_alg».proof.Proof.Gen.ReferenceIdeal
import proofs.«400441_j2886218023667_1_alg».proof.Proof.Gen.ReferenceIdeal.Run
import proofs.«400441_j2886218023667_1_alg».proof.Proof.Gen.ReferenceIdeal.Read
import proofs.«400441_j2886218023667_1_alg».proof.Proof.Gen.Pre_finite_inputs
import proofs.«400441_j2886218023667_1_alg».proof.Proof.KernelRun
import proofs.«400441_j2886218023667_1_alg».proof.Proof.RefValue
import proofs.«400441_j2886218023667_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the one-hot matrix narrowed to bf16 and widened back is itself at `Ideal`. -/
theorem preserves : Cert.preserves_Kernel_KernelIdeal := IdealRules.truncf_extf.statement _ .f32 .bf16

/-- Both programs end at the loss of the arguments. -/
theorem algebraic : Cert.algebraic_KernelIdeal_ReferenceIdeal := by
  intro m ρ m' ρ' hpre hagree
  refine ⟨fun c => fun _ => Cert.SegLoss.lossFinal (m ((c.tc : Thread _ Cert.KernelIdeal.τ).loc Cert.KernelIdeal.main_arg0))
    (m ((c.tc : Thread _ Cert.KernelIdeal.τ).loc Cert.KernelIdeal.main_arg1))
    (m ((c.tc : Thread _ Cert.KernelIdeal.τ).loc Cert.KernelIdeal.main_arg2)), Cert.KernelIdeal.RunValue.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v73_eq, (hagree c).1, (hagree c).2.1, (hagree c).2.2]
  exact Cert.ReferenceIdeal.RefValue.ref_value _ _ _
    (fun i => Cert.PreDecode.finite_of_pre _ _ _ (hpre c) i) (fun i => Cert.PreDecode.range_of_pre _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
